-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_sqrt_d" .f32 0x3D3504F3#32 ((524288 / 11863283 : ℝ) : EReal)
  ∧ IdealRules.named_const.Statement Cert.KernelIdeal.κ "inv_sqrt_d" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S512x512 : Shape := ⟨2, ![512, 512]⟩
abbrev S512 : Shape := ⟨1, ![512]⟩
abbrev S4096x512 : Shape := ⟨2, ![4096, 512]⟩
abbrev S512x1 : Shape := ⟨2, ![512, 1]⟩
abbrev S1 : Shape := ⟨1, ![1]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4096x512 : S_.BroadcastsInDim S4096x512 (![] : Fin 0 → Fin S4096x512.rank)
  reducesTo_S4096x512_S_d0_1 : S4096x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512x1 .f32) (main_arg5 : FVec F S1 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S512x1 .f32 := Host.absf main_arg4
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x4096x512 .f32) (main_arg1 : FVec F S512x512 .f32) (main_arg2 : FVec F S512 .f32) (main_arg3 : FVec F S4096x512 .f32) (main_arg4 : FVec F S512x1 .f32) (main_arg5 : FVec F S1 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_v13 main_v16
-- ==== Kernel.lean ====
abbrev S8x4096x512 : Shape := ⟨3, ![8, 4096, 512]⟩
abbrev S512x512 : Shape := ⟨2, ![512, 512]⟩
abbrev S512 : Shape := ⟨1, ![512]⟩
abbrev S4096x512 : Shape := ⟨2, ![4096, 512]⟩
abbrev S512x1 : Shape := ⟨2, ![512, 1]⟩
abbrev S1 : Shape := ⟨1, ![1]⟩
abbrev S32768x512 : Shape := ⟨2, ![32768, 512]⟩
abbrev S512x4096 : Shape := ⟨2, ![512, 4096]⟩
abbrev S_ : Shape := ⟨0, ![]⟩
abbrev S4096 : Shape := ⟨1, ![4096]⟩
abbrev S1x4096 : Shape := ⟨2, ![1, 4096]⟩
abbrev S1x512 : Shape := ⟨2, ![1, 512]⟩
abbrev S1x1 : Shape := ⟨2, ![1, 1]⟩
abbrev S32768x1 : Shape := ⟨2, ![32768, 1]⟩
abbrev S256x512 : Shape := ⟨2, ![256, 512]⟩
abbrev S256 : Shape := ⟨1, ![256]⟩
abbrev S256x1 : Shape := ⟨2, ![256, 1]⟩
abbrev S256x4096 : Shape := ⟨2, ![256, 4096]⟩
abbrev S8x4096x1 : Shape := ⟨3, ![8, 4096, 1]⟩

abbrev nBuf : Space → Nat
  | .hbm => 20
  | .vmem => 11
  | .smem => 0
  | _ => 0

abbrev bufTy : (tb : Table) → Fin (tcTables nBuf tb) → BufTy
  | .hbm, ⟨0, _⟩ => ⟨S8x4096x512, .f32⟩
  | .hbm, ⟨1, _⟩ => ⟨S512x512, .f32⟩
  | .hbm, ⟨2, _⟩ => ⟨S512, .f32⟩
  | .hbm, ⟨3, _⟩ => ⟨S4096x512, .f32⟩
  | .hbm, ⟨4, _⟩ => ⟨S512x1, .f32⟩
  | .hbm, ⟨5, _⟩ => ⟨S1, .f32⟩
  | .hbm, ⟨6, _⟩ => ⟨S32768x512, .f32⟩
  | .hbm, ⟨7, _⟩ => ⟨S512x512, .bf16⟩
  | .hbm, ⟨8, _⟩ => ⟨S4096x512, .bf16⟩
  | .hbm, ⟨9, _⟩ => ⟨S512x4096, .f32⟩
  | .hbm, ⟨10, _⟩ => ⟨S512x4096, .bf16⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S1x4096, .f32⟩
  | .hbm, ⟨15, _⟩ => ⟨S1x512, .f32⟩
  | .hbm, ⟨16, _⟩ => ⟨S1x512, .f32⟩
  | .hbm, ⟨17, _⟩ => ⟨S1x1, .f32⟩
  | .hbm, ⟨18, _⟩ => ⟨S32768x1, .f32⟩
  | .hbm, ⟨19, _⟩ => ⟨S8x4096x1, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1x512, .f32⟩
  | .local _ .vmem, ⟨4, _⟩ => ⟨S4096x512, .bf16⟩
  | .local _ .vmem, ⟨5, _⟩ => ⟨S512x4096, .bf16⟩
  | .local _ .vmem, ⟨6, _⟩ => ⟨S1x4096, .f32⟩
  | .local _ .vmem, ⟨7, _⟩ => ⟨S1x512, .f32⟩
  | .local _ .vmem, ⟨8, _⟩ => ⟨S1x1, .f32⟩
  | .local _ .vmem, ⟨9, _⟩ => ⟨S512x1, .f32⟩
  | .local _ .vmem, ⟨10, _⟩ => ⟨S512x1, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x4096x512_S32768x512 : S8x4096x512.ShapeCasts S32768x512
  bitsLt_bf16_f32 : FTy.bits .bf16 < FTy.bits .f32
  transposes_S4096x512_S512x4096_1_0 : S4096x512.Transposes [1, 0] S512x4096
  reducesTo_S4096x512_S4096_d1 : S4096x512.ReducesTo [1] S4096
  h_S_ : 0 < S_.numel
  shapeCasts_S4096_S1x4096 : S4096.ShapeCasts S1x4096
  shapeCasts_S512_S1x512 : S512.ShapeCasts S1x512
  shapeCasts_S512x1_S1x512 : S512x1.ShapeCasts S1x512
  shapeCasts_S1_S1x1 : S1.ShapeCasts S1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S256x512_0_0 : ∀ a, (![0, 0] : Fin 2 → Nat) a + S256x512.size a ≤ S512x512.size a
  h_S256x512 : 0 < S256x512.numel
  shapeCasts_S256x512_S256x512 : S256x512.ShapeCasts S256x512
  broadcasts_S1x512_S256x512 : S1x512.Broadcasts S256x512
  reduces_S256x512_S256 : S256x512.Reduces [1] S256
  shapeCasts_S256_S256x1 : S256.ShapeCasts S256x1
  broadcasts_S256x1_S256x4096 : S256x1.Broadcasts S256x4096
  broadcasts_S1x4096_S256x4096 : S1x4096.Broadcasts S256x4096
  reduces_S256x4096_S256 : S256x4096.Reduces [1] S256
  broadcasts_S256x1_S256x512 : S256x1.Broadcasts S256x512
  broadcasts_S1x1_S256x1 : S1x1.Broadcasts S256x1
  inb_S512x1_S256x1_0_0 : ∀ a, (![0, 0] : Fin 2 → Nat) a + S256x1.size a ≤ S512x1.size a
  h_S256x1 : 0 < S256x1.numel
  inb_S512x512_S256x512_256_0 : ∀ a, (![256, 0] : Fin 2 → Nat) a + S256x512.size a ≤ S512x512.size a
  inb_S512x1_S256x1_256_0 : ∀ a, (![256, 0] : Fin 2 → Nat) a + S256x1.size a ≤ S512x1.size a
  shapeCasts_S32768x1_S8x4096x1 : S32768x1.ShapeCasts S8x4096x1
  dot_S256x512_S512x512_S256x512_1_0_0_1_n_n_wf : DotDims.WF S256x512 S512x512 S256x512 [1] [0] [0] [1] [] []
  dot_S256x512_S512x4096_S256x4096_1_0_0_1_n_n_wf : DotDims.WF S256x512 S512x4096 S256x4096 [1] [0] [0] [1] [] []
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S512x4096.size a
  hwx0_4 : ∀ i : grid0.Coords, EltTy.bits .bf16 = 32 ∨ (Rect.block (s := S512x4096) S512x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S32768x1.size a
  hwx0_8 : ∀ i : grid0.Coords, EltTy.bits .f32 = 32 ∨ (Rect.block (s := S32768x1) S512x1.size (cc0_transform_8 i) (hinb0_8 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S512x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S512x512 : Shape := ⟨2, ![512, 512]⟩
abbrev S512 : Shape := ⟨1, ![512]⟩
abbrev S4096x512 : Shape := ⟨2, ![4096, 512]⟩
abbrev S512x1 : Shape := ⟨2, ![512, 1]⟩
abbrev S1 : Shape := ⟨1, ![1]⟩
abbrev S1x1x512 : Shape := ⟨3, ![1, 1, 512]⟩
abbrev S_ : Shape := ⟨0, ![]⟩
abbrev S8x4096 : Shape := ⟨2, ![8, 4096]⟩
abbrev S8x4096x1 : Shape := ⟨3, ![8, 4096, 1]⟩
abbrev S4096 : Shape := ⟨1, ![4096]⟩
abbrev S8x4096x4096 : Shape := ⟨3, ![8, 4096, 4096]⟩
abbrev S1x1x4096 : Shape := ⟨3, ![1, 1, 4096]⟩
abbrev S1x1x1 : Shape := ⟨3, ![1, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S512x512, .f32⟩
  | .hbm, ⟨2, _⟩ => ⟨S512, .f32⟩
  | .hbm, ⟨3, _⟩ => ⟨S4096x512, .f32⟩
  | .hbm, ⟨4, _⟩ => ⟨S512x1, .f32⟩
  | .hbm, ⟨5, _⟩ => ⟨S1, .f32⟩
  | .hbm, ⟨6, _⟩ => ⟨S8x4096x512, .f32⟩
  | .hbm, ⟨7, _⟩ => ⟨S1x1x512, .f32⟩
  | .hbm, ⟨8, _⟩ => ⟨S8x4096x512, .f32⟩
  | .hbm, ⟨9, _⟩ => ⟨S8x4096x512, .f32⟩
  | .hbm, ⟨10, _⟩ => ⟨S8x4096x512, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S4096x512, .f32⟩
  | .hbm, ⟨15, _⟩ => ⟨S_, .f32⟩
  | .hbm, ⟨16, _⟩ => ⟨S4096, .f32⟩
  | .hbm, ⟨17, _⟩ => ⟨S8x4096x4096, .f32⟩
  | .hbm, ⟨18, _⟩ => ⟨S1x1x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S8x4096x512, .f32⟩
  | .hbm, ⟨46, _⟩ => ⟨S_, .f32⟩
  | .hbm, ⟨47, _⟩ => ⟨S8x4096x512, .f32⟩
  | .hbm, ⟨48, _⟩ => ⟨S8x4096x512, .f32⟩
  | .hbm, ⟨49, _⟩ => ⟨S8x4096x1, .f32⟩
  | .hbm, ⟨50, _⟩ => ⟨S1x1x1, .f32⟩
  | .hbm, ⟨51, _⟩ => ⟨S8x4096x1, .f32⟩
  | .hbm, ⟨52, _⟩ => ⟨S8x4096x1, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  reducesTo_S8x4096x512_S8x4096_d2 : S8x4096x512.ReducesTo [2] S8x4096
  h_S_ : 0 < S_.numel
  bcast_S8x4096_S8x4096x1_0_1 : S8x4096.BroadcastsInDim S8x4096x1 (![0, 1] : Fin 2 → Fin S8x4096x1.rank)
  reducesTo_S4096x512_S4096_d1 : S4096x512.ReducesTo [1] S4096
  bcast_S4096_S1x1x4096_2 : S4096.BroadcastsInDim S1x1x4096 (![2] : Fin 1 → Fin S1x1x4096.rank)
  bcast_S8x4096x1_S8x4096x4096_0_1_2 : S8x4096x1.BroadcastsInDim S8x4096x4096 (![0, 1, 2] : Fin 3 → Fin S8x4096x4096.rank)
  bcast_S1x1x4096_S8x4096x4096_0_1_2 : S1x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  bcast_S_S8x4096 : S_.BroadcastsInDim S8x4096 (![] : Fin 0 → Fin S8x4096.rank)
  bcast_S_S8x4096x512 : S_.BroadcastsInDim S8x4096x512 (![] : Fin 0 → Fin S8x4096x512.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  dot_S8x4096x512_S512x512_S8x4096x512_2_0_01_1_n_n_wf : DotDims.WF S8x4096x512 S512x512 S8x4096x512 [2] [0] [0, 1] [1] [] []
  dot_S8x4096x512_S4096x512_S8x4096x4096_2_1_01_0_n_n_wf : DotDims.WF S8x4096x512 S4096x512 S8x4096x4096 [2] [1] [0, 1] [0] [] []
  dot_S8x4096x4096_S4096x512_S8x4096x512_2_0_01_1_n_n_wf : DotDims.WF S8x4096x4096 S4096x512 S8x4096x512 [2] [0] [0, 1] [1] [] []
  dot_S8x4096x512_S512x1_S8x4096x1_2_0_01_1_n_n_wf : DotDims.WF S8x4096x512 S512x1 S8x4096x1 [2] [0] [0, 1] [1] [] []

variable [Facts₀]

def dot_S8x4096x512_S512x512_S8x4096x512_2_0_01_1_n_n : DotDims S8x4096x512 S512x512 S8x4096x512 where
  lhsContracting := [2]
  rhsContracting := [0]
  lhsNonContracting := [0, 1]
  rhsNonContracting := [1]
  lhsBatch := []
  rhsBatch := []
  wf := dot_S8x4096x512_S512x512_S8x4096x512_2_0_01_1_n_n_wf
def dot_S8x4096x512_S4096x512_S8x4096x4096_2_1_01_0_n_n : DotDims S8x4096x512 S4096x512 S8x4096x4096 where
  lhsContracting := [2]
  rhsContracting := [1]
  lhsNonContracting := [0, 1]
  rhsNonContracting := [0]
  lhsBatch := []
  rhsBatch := []
  wf := dot_S8x4096x512_S4096x512_S8x4096x4096_2_1_01_0_n_n_wf
def dot_S8x4096x4096_S4096x512_S8x4096x512_2_0_01_1_n_n : DotDims S8x4096x4096 S4096x512 S8x4096x512 where
  lhsContracting := [2]
  rhsContracting := [0]
  lhsNonContracting := [0, 1]
  rhsNonContracting := [1]
  lhsBatch := []
  rhsBatch := []
  wf := dot_S8x4096x4096_S4096x512_S8x4096x512_2_0_01_1_n_n_wf
def dot_S8x4096x512_S512x1_S8x4096x1_2_0_01_1_n_n : DotDims S8x4096x512 S512x1 S8x4096x1 where
  lhsContracting := [2]
  rhsContracting := [0]
  lhsNonContracting := [0, 1]
  rhsNonContracting := [1]
  lhsBatch := []
  rhsBatch := []
  wf := dot_S8x4096x512_S512x1_S8x4096x1_2_0_01_1_n_n_wf

class Facts : Prop extends Facts₀ where

variable [Facts]
-- ==== Proof.RowSpec.lean ====
/-
  One row of the soft k-means layer, as two functions of the row and the weights over the extended reals.

  For a row `x ∈ ℝ^512`, a linear map `W, b`, a codebook `C` of 4096 centroids in ℝ^512 and a read-out `w₂, b₂`:
    h   = x·W + b                                   (the embedded row)
    δ_c = √ max(‖h‖² + ‖C_c‖² − 2 h·C_c, 0)          (its distance to centroid c, clamped at 0)
    p_c = softmax(−δ)_c                              (soft assignment)
    out = ((Σ_c p_c C_c) / √512) · w₂ + b₂.
  The two arrangements differ only in how the softmax and the scale are spelt:
  * `rowRef` shifts −δ by its maximum, normalises each weight by the sum, and DIVIDES the combination by D = f32(√512);
  * `rowKer` shifts δ by its minimum, combines the UNNORMALISED weights and multiplies the combination once by
    (1/Σ)·(1/D).
  `wK = wR` holds on all of the extended reals (−a − (−m) = m − a, and max(−δ) = −min δ); moving the normalisation
  and the scale across the sum over c is distributivity, which needs every factor finite.
-/
import Idealize.ShloMosaic.PureOps.Ideal

noncomputable section

namespace Cert.KMeansRow

open Idealize.ShloMosaic

/-! ## The float words the two programs spell, as the extended reals they denote -/

theorem ofBits_two : Ideal.ofBits .f32 0x40000000#32 = ((2 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

theorem ofBits_posInf : Ideal.ofBits .f32 0x7F800000#32 = ⊤ := by
  simp [Ideal.ofBits, Ideal.ieee]

theorem ofBits_negInf : Ideal.ofBits .f32 0xFF800000#32 = ⊥ := by
  simp [Ideal.ofBits, Ideal.ieee]

/-- The reference's divisor, the f32 nearest √512, is the dyadic 11863283 / 2¹⁹. -/
theorem ofBits_sqrtD : Ideal.ofBits .f32 0x41B504F3#32 = ((11863283 / 524288 : ℝ) : EReal) := by
  simp [Ideal.ofBits, Ideal.ieee, -EReal.coe_mul]; norm_num

/-! ## The row function -/

section
variable (x : Fin 512 → EReal) (W : Fin 512 → Fin 512 → EReal) (b : Fin 512 → EReal)
  (C : Fin 4096 → Fin 512 → EReal) (w₂ : Fin 512 → EReal) (b₂ : EReal)

/-- The embedded row `x·W + b`. -/
def hid (d : Fin 512) : EReal := (∑ i : Fin 512, x i * W i d) + b d

/-- The clamped Euclidean distance from the embedded row to centroid `c`, by the expansion
    ‖h‖² + ‖C_c‖² − 2 h·C_c. -/
def dist (c : Fin 4096) : EReal :=
  Ideal.sqrt (max (((∑ d : Fin 512, hid x W b d * hid x W b d) + (∑ d : Fin 512, C c d * C c d))
    - ((2 : ℝ) : EReal) * (∑ d : Fin 512, hid x W b d * C c d)) 0)

/-- Unnormalised softmax weight, shifted by the smallest distance. -/
def wK (c : Fin 4096) : EReal :=
  Ideal.exp ((Finset.univ.fold min ⊤ (dist x W b C)) - dist x W b C c)

/-- Unnormalised softmax weight of the negated distances, shifted by their largest. -/
def wR (c : Fin 4096) : EReal :=
  Ideal.exp (-(dist x W b C c) - max ⊥ (Finset.univ.fold max ⊥ (fun c' => -(dist x W b C c'))))

/-- Combine, then scale once by (1/Σ)·(1/D). -/
def rowKer : EReal :=
  (∑ d : Fin 512, ((∑ c : Fin 4096, wK x W b C c * C c d)
      * (Ideal.div 1 (∑ c : Fin 4096, wK x W b C c) * ((524288 / 11863283 : ℝ) : EReal))) * w₂ d) + b₂

/-- Normalise each weight, combine, divide by D. -/
def rowRef : EReal :=
  (∑ d : Fin 512, Ideal.div (∑ c : Fin 4096, Ideal.div (wR x W b C c) (∑ c' : Fin 4096, wR x W b C c') * C c d)
      ((11863283 / 524288 : ℝ) : EReal) * w₂ d) + b₂

end

end Cert.KMeansRow

end
-- ==== Proof.RowLaw.lean ====
/-
  The two arrangements of the soft k-means row agree when the row, the linear map and the codebook are finite.

  Three steps.
  * The two spellings of the unnormalised softmax weight are one function on all of the extended reals:
    −a − (−m) = m − a, and the largest of the negated distances is the negation of the smallest distance.
  * With a finite row, linear map, offset and codebook every intermediate quantity is (the coercion of) a real:
    the embedded row, the three inner products, the clamped radicand (a real ≥ 0), its square root, the
    smallest distance over the nonempty codebook, each weight (a positive real) and their sum (a positive real).
  * Over the reals, (Σ_c (e_c / S) · C_cd) / D = (Σ_c e_c · C_cd) · ((1/S) · (1/D)) by distributivity, S ≠ 0, D ≠ 0.
  The read-out weights w₂ and offset b₂ enter both sides in the same way and need not be finite.
-/
import proofs.«402103_j48155173323353_3_alg».proof.Proof.RowSpec

noncomputable section

namespace Cert.KMeansRow

open Idealize.ShloMosaic

/-! ## Sums and folds of coerced reals -/

/-- The coercion ℝ → EReal commutes with finite sums. -/
private theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → EReal commutes with binary minimum. -/
private theorem coe_min' (p q : ℝ) : ((min p q : ℝ) : EReal) = min (p : EReal) (q : EReal) :=
  EReal.coe_strictMono.monotone.map_min

/-- The coercion ℝ → EReal commutes with binary maximum. -/
private theorem coe_max' (p q : ℝ) : ((max p q : ℝ) : EReal) = max (p : EReal) (q : EReal) :=
  EReal.coe_strictMono.monotone.map_max

/-- The smallest of a nonempty finite family of reals, computed in the extended reals starting from ⊤, is a real. -/
private theorem fold_min_coe {ι : Type*} (s : Finset ι) (hs : s.Nonempty) (g : ι → ℝ) :
    ∃ m : ℝ, s.fold min ⊤ (fun c => (g c : EReal)) = (m : EReal) := by
  induction hs using Finset.Nonempty.cons_induction with
  | singleton a => exact ⟨g a, by rw [Finset.fold_singleton, min_eq_left le_top]⟩
  | cons a s ha hs ih =>
    obtain ⟨m, hm⟩ := ih
    exact ⟨min (g a) m, by rw [Finset.fold_cons, hm, coe_min']⟩

/-- Negation turns the running minimum into the running maximum. -/
private theorem fold_max_neg {ι : Type*} (s : Finset ι) (f : ι → EReal) :
    s.fold max ⊥ (fun c => -f c) = -(s.fold min ⊤ f) := by
  classical
  induction s using Finset.induction_on with
  | empty => rw [Finset.fold_empty, Finset.fold_empty, EReal.neg_top]
  | insert a s ha ih =>
    rw [Finset.fold_insert ha, Finset.fold_insert ha, ih]
    rcases le_total (f a) (s.fold min ⊤ f) with h | h
    · rw [min_eq_left h, max_eq_left (EReal.neg_le_neg_iff.2 h)]
    · rw [min_eq_right h, max_eq_right (EReal.neg_le_neg_iff.2 h)]

/-! ## The two spellings of the weight are one function -/

section
variable (x : Fin 512 → EReal) (W : Fin 512 → Fin 512 → EReal) (b : Fin 512 → EReal)
  (C : Fin 4096 → Fin 512 → EReal)

/-- −a − (−m) = m − a with m the smallest distance: no finiteness is needed. -/
private theorem wK_eq_wR (c : Fin 4096) : wK x W b C c = wR x W b C c := by
  unfold wK wR
  rw [max_eq_right bot_le, fold_max_neg, sub_eq_add_neg (-(dist x W b C c)), neg_neg, add_comm,
    ← sub_eq_add_neg]

/-! ## Real mirrors of the intermediate quantities -/

variable (xr : Fin 512 → ℝ) (Wr : Fin 512 → Fin 512 → ℝ) (br : Fin 512 → ℝ) (Cr : Fin 4096 → Fin 512 → ℝ)

/-- The embedded row over the reals. -/
private def hidR (d : Fin 512) : ℝ := (∑ i : Fin 512, xr i * Wr i d) + br d

/-- The clamped distance over the reals. -/
private def distR (c : Fin 4096) : ℝ :=
  Real.sqrt (max (((∑ d : Fin 512, hidR xr Wr br d * hidR xr Wr br d) + (∑ d : Fin 512, Cr c d * Cr c d))
    - 2 * (∑ d : Fin 512, hidR xr Wr br d * Cr c d)) 0)

private theorem hid_coe (hx : ∀ i, x i = (xr i : EReal)) (hW : ∀ i d, W i d = (Wr i d : EReal))
    (hb : ∀ d, b d = (br d : EReal)) (d : Fin 512) :
    hid x W b d = ((hidR xr Wr br d : ℝ) : EReal) := by
  unfold hid hidR
  rw [EReal.coe_add, coe_finset_sum, hb d]
  refine congrArg (· + _) (Finset.sum_congr rfl fun i _ => ?_)
  rw [hx i, hW i d, EReal.coe_mul]

private theorem dist_coe (hh : ∀ d, hid x W b d = ((hidR xr Wr br d : ℝ) : EReal))
    (hC : ∀ c d, C c d = (Cr c d : EReal)) (c : Fin 4096) :
    dist x W b C c = ((distR xr Wr br Cr c : ℝ) : EReal) := by
  have e1 : (∑ d : Fin 512, hid x W b d * hid x W b d)
      = ((∑ d : Fin 512, hidR xr Wr br d * hidR xr Wr br d : ℝ) : EReal) := by
    rw [coe_finset_sum]
    exact Finset.sum_congr rfl fun d _ => by rw [hh d, EReal.coe_mul]
  have e2 : (∑ d : Fin 512, C c d * C c d) = ((∑ d : Fin 512, Cr c d * Cr c d : ℝ) : EReal) := by
    rw [coe_finset_sum]
    exact Finset.sum_congr rfl fun d _ => by rw [hC c d, EReal.coe_mul]
  have e3 : (∑ d : Fin 512, hid x W b d * C c d)
      = ((∑ d : Fin 512, hidR xr Wr br d * Cr c d : ℝ) : EReal) := by
    rw [coe_finset_sum]
    exact Finset.sum_congr rfl fun d _ => by rw [hh d, hC c d, EReal.coe_mul]
  unfold dist distR
  rw [e1, e2, e3, ← EReal.coe_add, ← EReal.coe_mul, ← EReal.coe_sub, ← EReal.coe_zero, ← coe_max',
    Ideal.sqrt_coe, if_neg (not_lt.2 (le_max_right _ _))]

/-- Every weight is a positive real. -/
private theorem wK_coe (hd : ∀ c, dist x W b C c = ((distR xr Wr br Cr c : ℝ) : EReal)) :
    ∃ e : Fin 4096 → ℝ, (∀ c, 0 < e c) ∧ ∀ c, wK x W b C c = ((e c : ℝ) : EReal) := by
  have hfun : dist x W b C = fun c => ((distR xr Wr br Cr c : ℝ) : EReal) := funext hd
  obtain ⟨m, hm⟩ := fold_min_coe (Finset.univ : Finset (Fin 4096)) Finset.univ_nonempty (distR xr Wr br Cr)
  refine ⟨fun c => Real.exp (m - distR xr Wr br Cr c), fun c => Real.exp_pos _, fun c => ?_⟩
  unfold wK
  rw [hd c, hfun, hm, ← EReal.coe_sub, Ideal.exp_coe]

end

/-! ## Moving the normalisation and the scale across the sum -/

/-- (Σ_c (e_c / S) · C_c) / D = (Σ_c e_c · C_c) · ((1/S) · (1/D)) for reals with S ≠ 0, D ≠ 0. -/
private theorem scale_law {ι : Type*} (s : Finset ι) (e Cd : ι → ℝ) (S D : ℝ) (hS : S ≠ 0) (hD : D ≠ 0) :
    Ideal.div (∑ c ∈ s, Ideal.div (e c : EReal) (S : EReal) * (Cd c : EReal)) (D : EReal)
      = (∑ c ∈ s, (e c : EReal) * (Cd c : EReal)) * (Ideal.div 1 (S : EReal) * ((1 / D : ℝ) : EReal)) := by
  have L : (∑ c ∈ s, Ideal.div (e c : EReal) (S : EReal) * (Cd c : EReal))
      = ((∑ c ∈ s, e c * (1 / S) * Cd c : ℝ) : EReal) := by
    rw [coe_finset_sum]
    exact Finset.sum_congr rfl fun c _ => by rw [Ideal.div_coe hS, EReal.coe_mul, EReal.coe_mul]
  have R : (∑ c ∈ s, (e c : EReal) * (Cd c : EReal)) = ((∑ c ∈ s, e c * Cd c : ℝ) : EReal) := by
    rw [coe_finset_sum]
    exact Finset.sum_congr rfl fun c _ => by rw [EReal.coe_mul]
  have key : (∑ c ∈ s, e c * (1 / S) * Cd c) = (∑ c ∈ s, e c * Cd c) * (1 / S) := by
    rw [Finset.sum_mul]
    exact Finset.sum_congr rfl fun c _ => by ring
  rw [L, R, Ideal.div_coe hD, Ideal.div_coe hS, one_mul, ← EReal.coe_mul, ← EReal.coe_mul, ← EReal.coe_mul,
    key, mul_assoc]

/-! ## The row law -/

theorem rowKer_eq_rowRef (x : Fin 512 → EReal) (W : Fin 512 → Fin 512 → EReal) (b : Fin 512 → EReal)
    (C : Fin 4096 → Fin 512 → EReal) (w₂ : Fin 512 → EReal) (b₂ : EReal)
    (hx : ∀ i, ∃ r : ℝ, x i = (r : EReal)) (hW : ∀ i d, ∃ r : ℝ, W i d = (r : EReal))
    (hb : ∀ d, ∃ r : ℝ, b d = (r : EReal)) (hC : ∀ c d, ∃ r : ℝ, C c d = (r : EReal)) :
    rowKer x W b C w₂ b₂ = rowRef x W b C w₂ b₂ := by
  choose xr hxr using hx
  choose Wr hWr using hW
  choose br hbr using hb
  choose Cr hCr using hC
  have hh := hid_coe x W b xr Wr br hxr hWr hbr
  have hd := dist_coe x W b C xr Wr br Cr hh hCr
  obtain ⟨e, hepos, he⟩ := wK_coe x W b C xr Wr br Cr hd
  have hS : (∑ c : Fin 4096, e c) ≠ 0 :=
    (Finset.sum_pos (fun c _ => hepos c) Finset.univ_nonempty).ne'
  have hSumK : (∑ c : Fin 4096, wK x W b C c) = ((∑ c : Fin 4096, e c : ℝ) : EReal) := by
    rw [coe_finset_sum]
    exact Finset.sum_congr rfl fun c _ => he c
  have hSumR : (∑ c : Fin 4096, wR x W b C c) = ((∑ c : Fin 4096, e c : ℝ) : EReal) := by
    rw [← hSumK]
    exact Finset.sum_congr rfl fun c _ => (wK_eq_wR x W b C c).symm
  have hk : (524288 / 11863283 : ℝ) = 1 / (11863283 / 524288 : ℝ) := by norm_num
  unfold rowKer rowRef
  refine congrArg (· + b₂) (Finset.sum_congr rfl fun d _ => congrArg (· * w₂ d) ?_)
  have hl : (∑ c : Fin 4096, wK x W b C c * C c d) = ∑ c : Fin 4096, (e c : EReal) * (Cr c d : EReal) :=
    Finset.sum_congr rfl fun c _ => by rw [he c, hCr c d]
  have hr : (∑ c : Fin 4096, Ideal.div (wR x W b C c) (∑ c' : Fin 4096, wR x W b C c') * C c d)
      = ∑ c : Fin 4096, Ideal.div (e c : EReal) ((∑ c : Fin 4096, e c : ℝ) : EReal) * (Cr c d : EReal) :=
    Finset.sum_congr rfl fun c _ => by rw [hSumR, ← wK_eq_wR, he c, hCr c d]
  rw [hl, hr, hSumK, hk]
  exact (scale_law Finset.univ e (fun c => Cr c d) (∑ c : Fin 4096, e c) (11863283 / 524288) hS
    (by norm_num)).symm

end Cert.KMeansRow

end
-- ==== Proof.FiniteArgs.lean ====
/-
  Under the precondition "every float input is finite", every entry of the first four argument arrays is a real number.

  The precondition is the conjunction, over the six arguments, of "all entries satisfy |x| < +∞", where |x| = max x (-x) on the
  extended reals and +∞ is the value of the word 0x7F800000. An extended real with max x (-x) < ⊤ is neither ⊤ nor ⊥, hence a real.
-/
import proofs.«402103_j48155173323353_3_alg».proof.Pre_finite_inputs
import Idealize.ShloMosaic.PureOps.Ideal.Laws
import Idealize.ShloMosaic.Lib.ReduceAll
import Idealize.ShloMosaic.Lib.ValueIdx

noncomputable section

namespace Cert.KMeansFinite

open Idealize.ShloMosaic Cert.Pre_finite_inputs

/-- The word 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) compares strictly below ⊤ is a real number. -/
theorem real_of_abs_lt_top (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- The shape of rank 0 has one index. -/
instance subsingleton_S_ : Subsingleton S_.Idx := ⟨fun a b => funext fun d => d.elim0⟩

/-- "All entries of a satisfy |x| < +∞", as the and-reduction over every axis of the elementwise comparison, gives that each
    entry of a is a real. -/
theorem all_real {s : Shape} {axes : List (Fin s.rank)} (hb : S_.BroadcastsInDim s (![] : Fin 0 → Fin s.rank))
    (hr : s.ReducesTo axes S_) (hu : 0 < S_.numel) (a : FVec Ideal s .f32)
    (e : Host.reduce IntOp.andi
          (cmpf .olt (Host.absf a) (broadcastInDim s ![] hb (constant (F := Ideal) S_ .f32 0x7F800000#32)))
          (constantI S_ 1 1#1) hr hu ValueIdx.ix0 = 1#1)
    (i : s.Idx) : ∃ r : ℝ, a i = (r : EReal) := by
  have h1 := Host.reduce_andi_all _ _ hr hu ValueIdx.ix0 e i
  refine real_of_abs_lt_top (a i) ?_
  rw [← ofBits_inf]
  exact h1

theorem real_of_pre [Cert.Pre_finite_inputs.Facts]
    (a0 : FVec Ideal S8x4096x512 .f32) (a1 : FVec Ideal S512x512 .f32) (a2 : FVec Ideal S512 .f32)
    (a3 : FVec Ideal S4096x512 .f32) (a4 : FVec Ideal S512x1 .f32) (a5 : FVec Ideal S1 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  -- the six-fold conjunction, split from the outside in
  obtain ⟨h0, -⟩ := IntOp.andi_eq_one.1 h0
  obtain ⟨h0, -⟩ := IntOp.andi_eq_one.1 h0
  obtain ⟨h012, e3⟩ := IntOp.andi_eq_one.1 h0
  obtain ⟨h01, e2⟩ := IntOp.andi_eq_one.1 h012
  obtain ⟨e0, e1⟩ := IntOp.andi_eq_one.1 h01
  exact ⟨all_real _ _ _ a0 e0, all_real _ _ _ a1 e1, all_real _ _ _ a2 e2, all_real _ _ _ a3 e3⟩

end Cert.KMeansFinite

end
-- ==== Proof.RefRow.lean ====
/-
  The reference program's result, read at one (batch, position) entry, is the reference arrangement of the row function
  at that row of the input.

  The result term is read one operation at a time, outermost first, at the index (bi, s, o). Every layout operation
  (a broadcast) only re-reads its operand at an index computed from the coordinates, so each intermediate value at
  a coordinate index is one of the named parts of the row function: the embedded row, the two squared norms and the
  cross term, the clamped distance, its negation, the largest negated distance, the shifted exponential, the sum of
  the exponentials, the normalised weight, the combination over the centroids, and its quotient by the scale.
-/
import proofs.«402103_j48155173323353_3_alg».proof.Proof.Gen.ReferenceIdeal.Read
import proofs.«402103_j48155173323353_3_alg».proof.Proof.RowSpec
import Idealize.ShloMosaic.Lib.ValueIdx

set_option maxRecDepth 16384

noncomputable section

namespace Cert.KMeansRef

open Idealize.ShloMosaic Idealize.ShloMosaic.ValueIdx Cert.ReferenceIdeal Cert.ReferenceIdeal.Gen Cert.KMeansRow

/-! ## The composed index functions, at coordinate indices -/

/-- The left operand of the embedding product is read along the row. -/
theorem lidx_v0 (bi : Fin 8) (s : Fin 4096) (d k : Fin 512) :
    Read.lidx_main_v0 (ix3 bi s d) k = ix3 bi s k :=
  funext fun a => Fin.ext (by match a with | ⟨0, _⟩ => rfl | ⟨1, _⟩ => rfl | ⟨2, _⟩ => rfl)

/-- The right operand of the embedding product is read down column `d`. -/
theorem ridx_v0 (bi : Fin 8) (s : Fin 4096) (d k : Fin 512) :
    Read.ridx_main_v0 (ix3 bi s d) k = ix2 k d :=
  funext fun a => Fin.ext (by match a with | ⟨0, _⟩ => rfl | ⟨1, _⟩ => rfl)

/-- The bias is broadcast along the batch and position axes. -/
theorem idx_v1v2 (bi : Fin 8) (s : Fin 4096) (d : Fin 512) :
    Read.idx_main_v1 (Read.idx_main_v2 (ix3 bi s d)) = ix1 d :=
  funext fun a => Fin.ext (by match a with | ⟨0, _⟩ => rfl)

/-- The sum of squares of the embedded row runs along the row. -/
theorem idx_v5 (bi : Fin 8) (s : Fin 4096) (k : Fin 512) :
    Read.idx_main_v5 (ix2 bi s) k = ix3 bi s k :=
  funext fun a => Fin.ext (by match a with | ⟨0, _⟩ => rfl | ⟨1, _⟩ => rfl | ⟨2, _⟩ => rfl)

/-- The sum of squares of a centroid runs along the centroid. -/
theorem idx_v8 (c : Fin 4096) (k : Fin 512) :
    Read.idx_main_v8 (ix1 c) k = ix2 c k :=
  funext fun a => Fin.ext (by match a with | ⟨0, _⟩ => rfl | ⟨1, _⟩ => rfl)

/-- The cross term reads the embedded row … -/
theorem lidx_v9 (bi : Fin 8) (s : Fin 4096) (c : Fin 4096) (k : Fin 512) :
    Read.lidx_main_v9 (ix3 bi s c) k = ix3 bi s k :=
  funext fun a => Fin.ext (by match a with | ⟨0, _⟩ => rfl | ⟨1, _⟩ => rfl | ⟨2, _⟩ => rfl)

/-- … against centroid `c`. -/
theorem ridx_v9 (bi : Fin 8) (s : Fin 4096) (c : Fin 4096) (k : Fin 512) :
    Read.ridx_main_v9 (ix3 bi s c) k = ix2 c k :=
  funext fun a => Fin.ext (by match a with | ⟨0, _⟩ => rfl | ⟨1, _⟩ => rfl)

/-- The row's squared norm is broadcast along the centroid axis. -/
theorem idx_v6v11 (bi : Fin 8) (s : Fin 4096) (c : Fin 4096) :
    Read.idx_main_v6 (Read.idx_main_v11 (ix3 bi s c)) = ix2 bi s :=
  funext fun a => Fin.ext (by match a with | ⟨0, _⟩ => rfl | ⟨1, _⟩ => rfl)

/-- A centroid's squared norm is broadcast along the batch and position axes. -/
theorem idx_v10v12 (bi : Fin 8) (s : Fin 4096) (c : Fin 4096) :
    Read.idx_main_v10 (Read.idx_main_v12 (ix3 bi s c)) = ix1 c :=
  funext fun a => Fin.ext (by match a with | ⟨0, _⟩ => rfl)

/-- The largest negated distance is broadcast along the centroid axis. -/
theorem idx_v24v25 (bi : Fin 8) (s : Fin 4096) (c : Fin 4096) :
    Read.idx_main_v24 (Read.idx_main_v25 (ix3 bi s c)) = ix2 bi s :=
  funext fun a => Fin.ext (by match a with | ⟨0, _⟩ => rfl | ⟨1, _⟩ => rfl)

/-- The sum of the exponentials runs along the centroid axis. -/
theorem idx_v28 (bi : Fin 8) (s : Fin 4096) (k : Fin 4096) :
    Read.idx_main_v28 (ix2 bi s) k = ix3 bi s k :=
  funext fun a => Fin.ext (by match a with | ⟨0, _⟩ => rfl | ⟨1, _⟩ => rfl | ⟨2, _⟩ => rfl)

/-- The sum of the exponentials is broadcast along the centroid axis. -/
theorem idx_v29v30 (bi : Fin 8) (s : Fin 4096) (c : Fin 4096) :
    Read.idx_main_v29 (Read.idx_main_v30 (ix3 bi s c)) = ix2 bi s :=
  funext fun a => Fin.ext (by match a with | ⟨0, _⟩ => rfl | ⟨1, _⟩ => rfl)

/-- The combination reads the weights of the row … -/
theorem lidx_v32 (bi : Fin 8) (s : Fin 4096) (d : Fin 512) (k : Fin 4096) :
    Read.lidx_main_v32 (ix3 bi s d) k = ix3 bi s k :=
  funext fun a => Fin.ext (by match a with | ⟨0, _⟩ => rfl | ⟨1, _⟩ => rfl | ⟨2, _⟩ => rfl)

/-- … against coordinate `d` of each centroid. -/
theorem ridx_v32 (bi : Fin 8) (s : Fin 4096) (d : Fin 512) (k : Fin 4096) :
    Read.ridx_main_v32 (ix3 bi s d) k = ix2 k d :=
  funext fun a => Fin.ext (by match a with | ⟨0, _⟩ => rfl | ⟨1, _⟩ => rfl)

/-- The read-out reads the scaled combination of the row … -/
theorem lidx_v35 (bi : Fin 8) (s : Fin 4096) (o : Fin 1) (k : Fin 512) :
    Read.lidx_main_v35 (ix3 bi s o) k = ix3 bi s k :=
  funext fun a => Fin.ext (by match a with | ⟨0, _⟩ => rfl | ⟨1, _⟩ => rfl | ⟨2, _⟩ => rfl)

/-- … against the read-out vector's one column. -/
theorem ridx_v35 (bi : Fin 8) (s : Fin 4096) (o : Fin 1) (k : Fin 512) :
    Read.ridx_main_v35 (ix3 bi s o) k = ix2 k o :=
  funext fun a => Fin.ext (by match a with | ⟨0, _⟩ => rfl | ⟨1, _⟩ => rfl)

/-- The read-out bias has one entry, broadcast everywhere. -/
theorem idx_v36v37 (bi : Fin 8) (s : Fin 4096) (o : Fin 1) :
    Read.idx_main_v36 (Read.idx_main_v37 (ix3 bi s o)) = ix1 (0 : Fin 1) :=
  funext fun a => Fin.ext (by match a with | ⟨0, _⟩ => rfl)

section Row

variable (x0 : (⟨S8x4096x512, .f32⟩ : BufTy).Contents (Elt Ideal)) (x1 : (⟨S512x512, .f32⟩ : BufTy).Contents (Elt Ideal))
  (x2 : (⟨S512, .f32⟩ : BufTy).Contents (Elt Ideal)) (x3 : (⟨S4096x512, .f32⟩ : BufTy).Contents (Elt Ideal))
  (bi : Fin 8) (s : Fin 4096)

/-! ## The embedded row, the squared norms and the cross term -/

/-- Operation 3 at (bi, s, d) is the embedded row's coordinate `d`. -/
theorem hid_eq (d : Fin 512) :
    Read.val_main_v3 (F := Ideal) x0 x1 x2 (ix3 bi s d)
      = hid (fun i => x0 (ix3 bi s i)) (fun i d => x1 (ix2 i d)) (fun d => x2 (ix1 d)) d := by
  rw [Read.val_main_v3_apply, Read.val_main_v0_apply, Read.val_main_v2_apply, Read.val_main_v1_apply, idx_v1v2,
    Ideal.addf_def]
  unfold hid
  refine congrArg (· + x2 (ix1 d)) (Finset.sum_congr rfl fun k _ => ?_)
  rw [lidx_v0, ridx_v0]

/-- Operation 5 at (bi, s) is the embedded row's squared norm. -/
theorem sqh_eq :
    Read.val_main_v5 (F := Ideal) x0 x1 x2 (ix2 bi s)
      = ∑ d : Fin 512, hid (fun i => x0 (ix3 bi s i)) (fun i d => x1 (ix2 i d)) (fun d => x2 (ix1 d)) d
          * hid (fun i => x0 (ix3 bi s i)) (fun i d => x1 (ix2 i d)) (fun d => x2 (ix1 d)) d := by
  rw [Read.val_main_v5_apply, Read.val_main_cst_apply, Ideal.ofBits_def, ofBits_zero, zero_add]
  refine Finset.sum_congr rfl fun k _ => ?_
  rw [idx_v5, Read.val_main_v4_apply, Ideal.mulf_def, hid_eq]

/-- Operation 8 at `c` is centroid `c`'s squared norm. -/
theorem sqc_eq (c : Fin 4096) :
    Read.val_main_v8 (F := Ideal) x3 (ix1 c) = ∑ d : Fin 512, x3 (ix2 c d) * x3 (ix2 c d) := by
  rw [Read.val_main_v8_apply, Read.val_main_cst_0_apply, Ideal.ofBits_def, ofBits_zero, zero_add]
  refine Finset.sum_congr rfl fun k _ => ?_
  rw [idx_v8, Read.val_main_v7_apply, Ideal.mulf_def]

/-- Operation 9 at (bi, s, c) is the embedded row against centroid `c`. -/
theorem dot_eq (c : Fin 4096) :
    Read.val_main_v9 (F := Ideal) x0 x1 x2 x3 (ix3 bi s c)
      = ∑ d : Fin 512, hid (fun i => x0 (ix3 bi s i)) (fun i d => x1 (ix2 i d)) (fun d => x2 (ix1 d)) d * x3 (ix2 c d) := by
  rw [Read.val_main_v9_apply]
  refine Finset.sum_congr rfl fun k _ => ?_
  rw [lidx_v9, ridx_v9, hid_eq]

/-! ## The clamped distance, its negation, and the largest negated distance -/

/-- Operation 19 at (bi, s, c) is the clamped distance from the embedded row to centroid `c`. -/
theorem dist_eq (c : Fin 4096) :
    Read.val_main_v19 (F := Ideal) x0 x1 x2 x3 (ix3 bi s c)
      = dist (fun i => x0 (ix3 bi s i)) (fun i d => x1 (ix2 i d)) (fun d => x2 (ix1 d)) (fun c d => x3 (ix2 c d)) c := by
  rw [Read.val_main_v19_apply, Read.val_main_v18_apply, Read.val_main_v17_apply, Read.val_main_cst_2_apply,
    Read.val_main_v16_apply, Read.val_main_v13_apply, Read.val_main_v15_apply, Read.val_main_v14_apply,
    Read.val_main_cst_1_apply, Read.val_main_v11_apply, Read.val_main_v6_apply, idx_v6v11, sqh_eq,
    Read.val_main_v12_apply, Read.val_main_v10_apply, idx_v10v12, sqc_eq, dot_eq]
  simp only [Ideal.hostUnary_sqrt_def, Ideal.maximumf_def, Ideal.subf_def, Ideal.addf_def, Ideal.mulf_def,
    Ideal.ofBits_def, ofBits_zero, ofBits_two]
  rfl

/-- Operation 20 at (bi, s, c) is the negated distance. -/
theorem neg_eq (c : Fin 4096) :
    Read.val_main_v20 (F := Ideal) x0 x1 x2 x3 (ix3 bi s c)
      = -(dist (fun i => x0 (ix3 bi s i)) (fun i d => x1 (ix2 i d)) (fun d => x2 (ix1 d)) (fun c d => x3 (ix2 c d)) c) := by
  rw [Read.val_main_v20_apply, Ideal.hostNegf_def, Ideal.negf_def, dist_eq]

/-- Operation 21, the reduction by maximum over the centroid axis from the initial value −∞, is at (bi, s) the
    fold of `max` from ⊥ over the negated distances: a one-axis reduction by a commutative and associative
    operation is the fold over that axis's coordinates, and the index lifted from (bi, s) by the coordinate `c'`
    is (bi, s, c'). -/
theorem max_eq :
    Read.val_main_v21 (F := Ideal) x0 x1 x2 x3 (ix2 bi s)
      = Finset.univ.fold max ⊥ (fun c' : Fin 4096 =>
          -(dist (fun i => x0 (ix3 bi s i)) (fun i d => x1 (ix2 i d)) (fun d => x2 (ix1 d)) (fun c d => x3 (ix2 c d)) c')) := by
  have h : S8x4096x4096.Reduces [2] S8x4096 := by decide
  unfold Read.val_main_v21
  refine (Host.reduce_eq_fold_single (FloatOps.maximumf (F := Ideal) (φ := .f32)) _ _
    reducesTo_S8x4096x4096_S8x4096_d2 h h_S_ (ix2 bi s)).trans ?_
  rw [Read.val_main_cst_3_apply, Ideal.ofBits_def, ofBits_negInf]
  show Finset.fold max ⊥ (fun c' : Fin 4096 => Read.val_main_v20 (F := Ideal) x0 x1 x2 x3 (h.lift (ix2 bi s) c'))
    Finset.univ = _
  refine Finset.fold_congr fun c' _ => ?_
  have hl : h.lift (ix2 bi s) c' = ix3 bi s c' :=
    funext fun a => Fin.ext (by match a with | ⟨0, _⟩ => rfl | ⟨1, _⟩ => rfl | ⟨2, _⟩ => rfl)
  rw [hl, neg_eq]

/-! ## The soft assignment and the combination -/

/-- Operation 27 at (bi, s, c) is the exponential of the negated distance shifted by the largest one. -/
theorem wR_eq (c : Fin 4096) :
    Read.val_main_v27 (F := Ideal) x0 x1 x2 x3 (ix3 bi s c)
      = wR (fun i => x0 (ix3 bi s i)) (fun i d => x1 (ix2 i d)) (fun d => x2 (ix1 d)) (fun c d => x3 (ix2 c d)) c := by
  rw [Read.val_main_v27_apply, Read.val_main_v26_apply, neg_eq, Read.val_main_v25_apply, Read.val_main_v24_apply,
    idx_v24v25, Read.val_main_v23_apply, Read.val_main_v22_apply, Read.val_main_cst_4_apply, max_eq]
  simp only [Ideal.hostUnary_exp_def, Ideal.subf_def, Ideal.maximumf_def, Ideal.ofBits_def, ofBits_negInf]
  rfl

/-- Operation 28 at (bi, s) is the sum of those exponentials over the centroids. -/
theorem sum_eq :
    Read.val_main_v28 (F := Ideal) x0 x1 x2 x3 (ix2 bi s)
      = ∑ c : Fin 4096,
          wR (fun i => x0 (ix3 bi s i)) (fun i d => x1 (ix2 i d)) (fun d => x2 (ix1 d)) (fun c d => x3 (ix2 c d)) c := by
  rw [Read.val_main_v28_apply, Read.val_main_cst_5_apply, Ideal.ofBits_def, ofBits_zero, zero_add]
  refine Finset.sum_congr rfl fun k _ => ?_
  rw [idx_v28, wR_eq]

/-- Operation 31 at (bi, s, c) is the normalised weight of centroid `c`. -/
theorem p_eq (c : Fin 4096) :
    Read.val_main_v31 (F := Ideal) x0 x1 x2 x3 (ix3 bi s c)
      = Ideal.div
          (wR (fun i => x0 (ix3 bi s i)) (fun i d => x1 (ix2 i d)) (fun d => x2 (ix1 d)) (fun c d => x3 (ix2 c d)) c)
          (∑ c' : Fin 4096,
            wR (fun i => x0 (ix3 bi s i)) (fun i d => x1 (ix2 i d)) (fun d => x2 (ix1 d)) (fun c d => x3 (ix2 c d)) c') := by
  rw [Read.val_main_v31_apply, Ideal.hostDivf_def, wR_eq, Read.val_main_v30_apply, Read.val_main_v29_apply, idx_v29v30,
    sum_eq]

/-- Operation 32 at (bi, s, d) is coordinate `d` of the centroids combined with the normalised weights. -/
theorem comb_eq (d : Fin 512) :
    Read.val_main_v32 (F := Ideal) x0 x1 x2 x3 (ix3 bi s d)
      = ∑ c : Fin 4096, Ideal.div
          (wR (fun i => x0 (ix3 bi s i)) (fun i d => x1 (ix2 i d)) (fun d => x2 (ix1 d)) (fun c d => x3 (ix2 c d)) c)
          (∑ c' : Fin 4096,
            wR (fun i => x0 (ix3 bi s i)) (fun i d => x1 (ix2 i d)) (fun d => x2 (ix1 d)) (fun c d => x3 (ix2 c d)) c')
          * x3 (ix2 c d) := by
  rw [Read.val_main_v32_apply]
  refine Finset.sum_congr rfl fun k _ => ?_
  rw [lidx_v32, ridx_v32, p_eq]

/-- Operation 34 at (bi, s, d) is that coordinate divided by the scale, the dyadic 11863283 / 2¹⁹. -/
theorem scaled_eq (d : Fin 512) :
    Read.val_main_v34 (F := Ideal) x0 x1 x2 x3 (ix3 bi s d)
      = Ideal.div (∑ c : Fin 4096, Ideal.div
          (wR (fun i => x0 (ix3 bi s i)) (fun i d => x1 (ix2 i d)) (fun d => x2 (ix1 d)) (fun c d => x3 (ix2 c d)) c)
          (∑ c' : Fin 4096,
            wR (fun i => x0 (ix3 bi s i)) (fun i d => x1 (ix2 i d)) (fun d => x2 (ix1 d)) (fun c d => x3 (ix2 c d)) c')
          * x3 (ix2 c d)) ((11863283 / 524288 : ℝ) : EReal) := by
  rw [Read.val_main_v34_apply, Ideal.hostDivf_def, comb_eq, Read.val_main_v33_apply, Read.val_main_cst_6_apply,
    Ideal.ofBits_def, ofBits_sqrtD]

end Row

/-- The result at (bi, s, o): the scaled combination against the read-out vector, plus the read-out bias. The last
    axis has one coordinate, so `o` is `0`. -/
theorem ref_row (x0 : (⟨S8x4096x512, .f32⟩ : BufTy).Contents (Elt Ideal)) (x1 : (⟨S512x512, .f32⟩ : BufTy).Contents (Elt Ideal))
    (x2 : (⟨S512, .f32⟩ : BufTy).Contents (Elt Ideal)) (x3 : (⟨S4096x512, .f32⟩ : BufTy).Contents (Elt Ideal))
    (x4 : (⟨S512x1, .f32⟩ : BufTy).Contents (Elt Ideal)) (x5 : (⟨S1, .f32⟩ : BufTy).Contents (Elt Ideal))
    (bi : Fin 8) (s : Fin 4096) (o : Fin 1) :
    Cert.ReferenceIdeal.Read.val_main_v38 (F := Ideal) x0 x1 x2 x3 x4 x5 (ix3 bi s o)
      = rowRef (fun i => x0 (ix3 bi s i)) (fun i d => x1 (ix2 i d)) (fun d => x2 (ix1 d)) (fun c d => x3 (ix2 c d))
          (fun d => x4 (ix2 d (0 : Fin 1))) (x5 (ix1 (0 : Fin 1))) := by
  obtain rfl : o = 0 := Subsingleton.elim _ _
  rw [Read.val_main_v38_apply, Read.val_main_v35_apply, Read.val_main_v37_apply, Read.val_main_v36_apply, idx_v36v37,
    Ideal.addf_def]
  unfold rowRef
  refine congrArg (· + x5 (ix1 (0 : Fin 1))) (Finset.sum_congr rfl fun k _ => ?_)
  rw [lidx_v35, ridx_v35, scaled_eq]

end Cert.KMeansRef

end
-- ==== Proof.Layout.lean ====
/-
  Two layout operations read at an index given by coordinates, for the keep-dims column shape [a, 1]:
  a vector cast to a column, and a column broadcast across a row.
-/
import Idealize.ShloMosaic.Lib.Pipeline.Value
import Idealize.ShloMosaic.Lib.ValueIdx
import Idealize.ShloMosaic.Lib.ValueLayout

namespace Cert.KMeansLayout

open Idealize.ShloMosaic Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KMeansLayout
-- ==== Proof.KerDist.lean ====
/-
  The kernel body's distance stage read at an index: for a 256-row half of the staged x block, the clamped distances to the 4096 centroids, their row minimum, and the shifted exponentials, as the row function's `dist`, its fold of min, and `wK`.
-/
import proofs.«402103_j48155173323353_3_alg».proof.Proof.Gen.KernelIdeal.Frame
import proofs.«402103_j48155173323353_3_alg».proof.Proof.RowSpec
import proofs.«402103_j48155173323353_3_alg».proof.Proof.Layout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KMeansKer

open Idealize.ShloMosaic Idealize.ShloMosaic.ValueIdx Cert.KernelIdeal Cert.KernelIdeal.Gen Cert.KMeansRow Cert.KMeansLayout

/-! ## The two matrix products read at an index -/

/-- Operand indices of the first product (rows of the block times the 512 × 512 matrix): the left index keeps the output row … -/
theorem lhsW_0 (i : S256x512.Idx) (r : dot_S256x512_S512x512_S256x512_1_0_0_1_n_n.contr.Idx) :
    (dot_S256x512_S512x512_S256x512_1_0_0_1_n_n.lhsIdx i r 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
/-- … and takes the contraction coordinate as its column; -/
theorem lhsW_1 (i : S256x512.Idx) (r : dot_S256x512_S512x512_S256x512_1_0_0_1_n_n.contr.Idx) :
    (dot_S256x512_S512x512_S256x512_1_0_0_1_n_n.lhsIdx i r 1).val = (r ⟨0, by decide⟩).val :=
  dot_S256x512_S512x512_S256x512_1_0_0_1_n_n.lhsIdx_val_of_single rfl i r
/-- the right index takes the contraction coordinate as its row … -/
theorem rhsW_0 (i : S256x512.Idx) (r : dot_S256x512_S512x512_S256x512_1_0_0_1_n_n.contr.Idx) :
    (dot_S256x512_S512x512_S256x512_1_0_0_1_n_n.rhsIdx i r 0).val = (r ⟨0, by decide⟩).val :=
  dot_S256x512_S512x512_S256x512_1_0_0_1_n_n.rhsIdx_val_of_single rfl i r
/-- … and keeps the output column. -/
theorem rhsW_1 (i : S256x512.Idx) (r : dot_S256x512_S512x512_S256x512_1_0_0_1_n_n.contr.Idx) :
    (dot_S256x512_S512x512_S256x512_1_0_0_1_n_n.rhsIdx i r 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The first product into the zero splat at `(q, d)`: the sum over `k` of the block's row `q` times the matrix's column `d`. -/
theorem matmulW_apply (a : FVec Ideal S256x512 .bf16) (w : FVec Ideal S512x512 .bf16) (q : Fin 256) (d : Fin 512) :
    matmul dot_S256x512_S512x512_S256x512_1_0_0_1_n_n none a w (constant S256x512 .f32 0x00000000#32) (ix2 q d)
      = ∑ k : Fin 512, a (ix2 q k) * w (ix2 k d) := by
  refine (Ideal.matmul_constant_zero_apply dot_S256x512_S512x512_S256x512_1_0_0_1_n_n none a w (ix2 q d)).trans ?_
  rw [← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 q d) ((contrEquiv1 dot_S256x512_S512x512_S256x512_1_0_0_1_n_n 512 rfl rfl).symm k) = ix2 q k := funext fun ax => Fin.ext (by
    match ax with
    | ⟨0, _⟩ => exact lhsW_0 _ _
    | ⟨1, _⟩ => exact (lhsW_1 _ _).trans hk)
  have er : dot_S256x512_S512x512_S256x512_1_0_0_1_n_n.rhsIdx (ix2 q d) ((contrEquiv1 dot_S256x512_S512x512_S256x512_1_0_0_1_n_n 512 rfl rfl).symm k) = ix2 k d := funext fun ax => Fin.ext (by
    match ax with
    | ⟨0, _⟩ => exact (rhsW_0 _ _).trans hk
    | ⟨1, _⟩ => exact rhsW_1 _ _)
  rw [el, er]

/-- Operand indices of the second product (embedded rows times the transposed codebook), likewise. -/
theorem lhsC_0 (i : S256x4096.Idx) (r : dot_S256x512_S512x4096_S256x4096_1_0_0_1_n_n.contr.Idx) :
    (dot_S256x512_S512x4096_S256x4096_1_0_0_1_n_n.lhsIdx i r 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem lhsC_1 (i : S256x4096.Idx) (r : dot_S256x512_S512x4096_S256x4096_1_0_0_1_n_n.contr.Idx) :
    (dot_S256x512_S512x4096_S256x4096_1_0_0_1_n_n.lhsIdx i r 1).val = (r ⟨0, by decide⟩).val :=
  dot_S256x512_S512x4096_S256x4096_1_0_0_1_n_n.lhsIdx_val_of_single rfl i r
theorem rhsC_0 (i : S256x4096.Idx) (r : dot_S256x512_S512x4096_S256x4096_1_0_0_1_n_n.contr.Idx) :
    (dot_S256x512_S512x4096_S256x4096_1_0_0_1_n_n.rhsIdx i r 0).val = (r ⟨0, by decide⟩).val :=
  dot_S256x512_S512x4096_S256x4096_1_0_0_1_n_n.rhsIdx_val_of_single rfl i r
theorem rhsC_1 (i : S256x4096.Idx) (r : dot_S256x512_S512x4096_S256x4096_1_0_0_1_n_n.contr.Idx) :
    (dot_S256x512_S512x4096_S256x4096_1_0_0_1_n_n.rhsIdx i r 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- The second product into the zero splat at `(q, c)`: the sum over `k` of the left row `q` times the right column `c`. -/
theorem matmulC_apply (a : FVec Ideal S256x512 .bf16) (ct : FVec Ideal S512x4096 .bf16) (q : Fin 256) (c : Fin 4096) :
    matmul dot_S256x512_S512x4096_S256x4096_1_0_0_1_n_n none a ct (constant S256x4096 .f32 0x00000000#32) (ix2 q c)
      = ∑ k : Fin 512, a (ix2 q k) * ct (ix2 k c) := by
  refine (Ideal.matmul_constant_zero_apply dot_S256x512_S512x4096_S256x4096_1_0_0_1_n_n none a ct (ix2 q c)).trans ?_
  rw [← Equiv.sum_comp (contrEquiv1 dot_S256x512_S512x4096_S256x4096_1_0_0_1_n_n 512 rfl rfl).symm]
  refine Finset.sum_congr rfl fun k _ => ?_
  have hk := contrEquiv1_symm_val dot_S256x512_S512x4096_S256x4096_1_0_0_1_n_n 512 rfl rfl k
  have el : dot_S256x512_S512x4096_S256x4096_1_0_0_1_n_n.lhsIdx (ix2 q c) ((contrEquiv1 dot_S256x512_S512x4096_S256x4096_1_0_0_1_n_n 512 rfl rfl).symm k) = ix2 q k := funext fun ax => Fin.ext (by
    match ax with
    | ⟨0, _⟩ => exact lhsC_0 _ _
    | ⟨1, _⟩ => exact (lhsC_1 _ _).trans hk)
  have er : dot_S256x512_S512x4096_S256x4096_1_0_0_1_n_n.rhsIdx (ix2 q c) ((contrEquiv1 dot_S256x512_S512x4096_S256x4096_1_0_0_1_n_n 512 rfl rfl).symm k) = ix2 k c := funext fun ax => Fin.ext (by
    match ax with
    | ⟨0, _⟩ => exact (rhsC_0 _ _).trans hk
    | ⟨1, _⟩ => exact rhsC_1 _ _)
  rw [el, er]

/-! ## The stages of the distance computation, over operands of the vector types -/

/-- The embedded block `x·W + b` as the body computes it: the block rounded to the narrow format (the identity on the extended reals), times the matrix, plus the bias row broadcast down the rows. -/
def embV (w : FVec Ideal S512x512 .bf16) (bb : FVec Ideal S1x512 .f32) (xh : FVec Ideal S256x512 .f32) : FVec Ideal S256x512 .f32 :=
  addf (matmul dot_S256x512_S512x512_S256x512_1_0_0_1_n_n none (truncf .bf16 (shapeCast S256x512 xh shapeCasts_S256x512_S256x512) bitsLt_bf16_f32) w (constant S256x512 .f32 0x00000000#32))
    (broadcastTo S256x512 bb broadcasts_S1x512_S256x512)

/-- At `(q, d)` it is the row function's `hid` of row `q`. -/
theorem embV_apply (w : FVec Ideal S512x512 .bf16) (bb : FVec Ideal S1x512 .f32) (xh : FVec Ideal S256x512 .f32) (q : Fin 256) (d : Fin 512) :
    embV w bb xh (ix2 q d) = hid (fun i => xh (ix2 q i)) (fun i d => w (ix2 i d)) (fun d => bb (ix2 (0 : Fin 1) d)) d := by
  unfold embV
  rw [shapeCast_self]
  refine (addf_apply _ _ _).trans ?_
  rw [matmulW_apply, broadcastTo_1b_ab_apply]
  rfl

/-- The lane sum of the squares of a 256 × 512 block at row `q`: the sum over the row. -/
theorem sqnorm_apply (h : FVec Ideal S256x512 .f32) (q : Fin 256) :
    multiReduction .add [1] S256 (mulf h h) 0x00000000#32 reduces_S256x512_S256 (.inl rfl) rfl (ix1 q)
      = ∑ d : Fin 512, h (ix2 q d) * h (ix2 q d) := by
  refine (Ideal.multiReduction_add_single (mulf h h) 0x00000000#32 reduces_S256x512_S256 (.inl rfl) rfl (ix1 q)).trans ?_
  refine Finset.sum_congr rfl fun k _ => ?_
  have e : reduces_S256x512_S256.lift (ix1 q) k = ix2 q k := funext fun ax => Fin.ext (by
    match ax with
    | ⟨0, _⟩ => rfl
    | ⟨1, _⟩ => rfl)
  rw [e]
  rfl

/-- The row minimum of a 256 × 4096 block from +∞, at row `q`: the fold of `min` from ⊤ over the row. -/
theorem minrow_apply (dd : FVec Ideal S256x4096 .f32) (q : Fin 256) :
    multiReduction .minimumf [1] S256 dd 0x7F800000#32 reduces_S256x4096_S256 (.inl rfl) rfl (ix1 q)
      = Finset.univ.fold min ⊤ (fun c : Fin 4096 => dd (ix2 q c)) := by
  refine (multiReduction_minimumf_eq_fold dd 0x7F800000#32 reduces_S256x4096_S256 (.inl rfl) rfl (ix1 q)).trans ?_
  refine (reduces_S256x4096_S256.fold_filter_drop_single _ _ dd (ix1 q)).trans ?_
  have hf : (dd ∘ reduces_S256x4096_S256.lift (ix1 q)) = fun c : Fin 4096 => dd (ix2 q c) :=
    funext fun k => congrArg dd (funext fun ax => Fin.ext (by
      match ax with
      | ⟨0, _⟩ => rfl
      | ⟨1, _⟩ => rfl))
  rw [hf]
  show Finset.univ.fold min (Ideal.ofBits .f32 0x7F800000#32) _ = _
  rw [ofBits_posInf]
  rfl

/-- The elementwise tail of the distance: from the three terms `a` = ‖h‖², `b` = ‖C_c‖², `m` = h·C_c at an index, the clamped root √max(a + b − 2m, 0). -/
theorem dist_tail_apply (A B M : FVec Ideal S256x4096 .f32) (i : S256x4096.Idx) (a b m : EReal)
    (hA : A i = a) (hB : B i = b) (hM : M i = m) :
    sqrt (maximumf (subf (addf A B) (mulf (broadcast S256x4096 (Scalar.ofBits .f32 0x40000000#32)) M))
        (broadcast S256x4096 (Scalar.ofBits .f32 0x00000000#32))) i
      = Ideal.sqrt (max ((a + b) - ((2 : ℝ) : EReal) * m) 0) := by
  subst hA hB hM
  show Ideal.sqrt (max ((A i + B i) - (Ideal.ofBits .f32 0x40000000#32 * M i)) (Ideal.ofBits .f32 0x00000000#32)) = _
  rw [ofBits_two, ofBits_zero]

/-- The row minimum cast to a column and broadcast along the row, at `(q, c)`: the fold of `min` from ⊤ over row `q`. -/
theorem minbc_apply (dd : FVec Ideal S256x4096 .f32) (q : Fin 256) (c : Fin 4096) :
    broadcastTo S256x4096 (shapeCast S256x1 (multiReduction .minimumf [1] S256 dd 0x7F800000#32 reduces_S256x4096_S256 (.inl rfl) rfl) shapeCasts_S256_S256x1) broadcasts_S256x1_S256x4096 (ix2 q c)
      = Finset.univ.fold min ⊤ (fun c' : Fin 4096 => dd (ix2 q c')) := by
  rw [broadcastTo_a1_ab_apply, shapeCast_a_a1_apply, minrow_apply]

/-- The exponential of a difference at an index. -/
theorem exp_subf_apply (A B : FVec Ideal S256x4096 .f32) (i : S256x4096.Idx) :
    exp (subf A B) i = Ideal.exp (A i - B i) := rfl

/-- The exponential of the broadcast row minimum less the block, at `(q, c)`. -/
theorem shiftexp_apply (dd : FVec Ideal S256x4096 .f32) (q : Fin 256) (c : Fin 4096) :
    exp (subf (broadcastTo S256x4096 (shapeCast S256x1 (multiReduction .minimumf [1] S256 dd 0x7F800000#32 reduces_S256x4096_S256 (.inl rfl) rfl) shapeCasts_S256_S256x1) broadcasts_S256x1_S256x4096) dd) (ix2 q c)
      = Ideal.exp (Finset.univ.fold min ⊤ (fun c' : Fin 4096 => dd (ix2 q c')) - dd (ix2 q c)) := by
  refine (exp_subf_apply _ dd (ix2 q c)).trans ?_
  rw [minbc_apply]

/-- The distances of a half block as the body computes them: ‖h‖² (a lane sum cast to a column and broadcast along the row) plus the centroids' squared norms (a row broadcast down the rows), less twice the product of the embedded block with the transposed codebook, clamped at 0, and the root. -/
def distV (w : FVec Ideal S512x512 .bf16) (bb : FVec Ideal S1x512 .f32) (ct : FVec Ideal S512x4096 .bf16)
    (sq : FVec Ideal S1x4096 .f32) (xh : FVec Ideal S256x512 .f32) : FVec Ideal S256x4096 .f32 :=
  sqrt (maximumf (subf
      (addf (broadcastTo S256x4096 (shapeCast S256x1 (multiReduction .add [1] S256 (mulf (embV w bb xh) (embV w bb xh)) 0x00000000#32 reduces_S256x512_S256 (.inl rfl) rfl) shapeCasts_S256_S256x1) broadcasts_S256x1_S256x4096)
        (broadcastTo S256x4096 sq broadcasts_S1x4096_S256x4096))
      (mulf (broadcast S256x4096 (Scalar.ofBits .f32 0x40000000#32))
        (matmul dot_S256x512_S512x4096_S256x4096_1_0_0_1_n_n none (truncf .bf16 (embV w bb xh) bitsLt_bf16_f32) ct (constant S256x4096 .f32 0x00000000#32))))
    (broadcast S256x4096 (Scalar.ofBits .f32 0x00000000#32)))

/-- At `(q, c)` it is the row function's `dist` of row `q` to centroid `c`, when `ct` is the transposed codebook and `sq` the centroids' squared norms. -/
theorem distV_apply (w : FVec Ideal S512x512 .bf16) (bb : FVec Ideal S1x512 .f32) (ct : FVec Ideal S512x4096 .bf16)
    (sq : FVec Ideal S1x4096 .f32) (xh : FVec Ideal S256x512 .f32) (C : Fin 4096 → Fin 512 → EReal)
    (hT : ∀ (d : Fin 512) (c : Fin 4096), ct (ix2 d c) = C c d)
    (hsq : ∀ c : Fin 4096, sq (ix2 (0 : Fin 1) c) = ∑ d : Fin 512, C c d * C c d)
    (q : Fin 256) (c : Fin 4096) :
    distV w bb ct sq xh (ix2 q c)
      = dist (fun i => xh (ix2 q i)) (fun i d => w (ix2 i d)) (fun d => bb (ix2 (0 : Fin 1) d)) C c := by
  unfold distV Cert.KMeansRow.dist
  refine dist_tail_apply _ _ _ (ix2 q c) _ _ _ ?_ ?_ ?_
  · rw [broadcastTo_a1_ab_apply, shapeCast_a_a1_apply, sqnorm_apply]
    exact Finset.sum_congr rfl fun d _ => by rw [embV_apply]
  · rw [broadcastTo_1b_ab_apply]
    exact hsq c
  · rw [matmulC_apply]
    refine Finset.sum_congr rfl fun d _ => ?_
    show embV w bb xh (ix2 q d) * ct (ix2 d c) = _
    rw [embV_apply, hT]

/-- `k0_pay9` (the distances) at row `q`, centroid `c`. `v4` is the transposed codebook and `v6` the centroids' squared norms. -/
theorem pay9_apply (v0 : Vec Ideal S512x512 .bf16) (v2 : Vec Ideal S1x512 .f32) (v4 : Vec Ideal S512x4096 .bf16)
    (v6 : Vec Ideal S1x4096 .f32) (xh : Vec Ideal S256x512 .f32) (C : Fin 4096 → Fin 512 → EReal)
    (hT : ∀ (d : Fin 512) (c : Fin 4096), v4 (ix2 d c) = C c d)
    (hsq : ∀ c : Fin 4096, v6 (ix2 (0 : Fin 1) c) = ∑ d : Fin 512, C c d * C c d)
    (q : Fin 256) (c : Fin 4096) :
    k0_pay9 (F := Ideal) v0 v2 v4 v6 xh (ix2 q c)
      = dist (fun i => xh (ix2 q i)) (fun i d => v0 (ix2 i d)) (fun d => v2 (ix2 (0 : Fin 1) d)) C c := by
  have e : k0_pay9 (F := Ideal) v0 v2 v4 v6 xh = distV (k0_pay2 v0) (k0_pay3 v2) (k0_pay4 v4) (k0_pay5 v6) xh := rfl
  have e2 : k0_pay2 (F := Ideal) v0 = v0 := shapeCast_self _ _
  have e3 : k0_pay3 (F := Ideal) v2 = v2 := shapeCast_self _ _
  have e4 : k0_pay4 (F := Ideal) v4 = v4 := shapeCast_self _ _
  have e5 : k0_pay5 (F := Ideal) v6 = v6 := shapeCast_self _ _
  rw [e, e2, e3, e4, e5]
  exact distV_apply v0 v2 v4 v6 xh C hT hsq q c

/-- `k0_pay10` (the row minimum of the distances, broadcast along the row) at row `q`, any column. -/
theorem pay10_apply (v0 : Vec Ideal S512x512 .bf16) (v2 : Vec Ideal S1x512 .f32) (v4 : Vec Ideal S512x4096 .bf16)
    (v6 : Vec Ideal S1x4096 .f32) (xh : Vec Ideal S256x512 .f32) (C : Fin 4096 → Fin 512 → EReal)
    (hT : ∀ (d : Fin 512) (c : Fin 4096), v4 (ix2 d c) = C c d)
    (hsq : ∀ c : Fin 4096, v6 (ix2 (0 : Fin 1) c) = ∑ d : Fin 512, C c d * C c d)
    (q : Fin 256) (c : Fin 4096) :
    k0_pay10 (F := Ideal) v0 v2 v4 v6 xh (ix2 q c)
      = Finset.univ.fold min ⊤ (dist (fun i => xh (ix2 q i)) (fun i d => v0 (ix2 i d)) (fun d => v2 (ix2 (0 : Fin 1) d)) C) := by
  have e : k0_pay10 (F := Ideal) v0 v2 v4 v6 xh
      = broadcastTo S256x4096 (shapeCast S256x1 (multiReduction .minimumf [1] S256 (k0_pay9 (F := Ideal) v0 v2 v4 v6 xh) 0x7F800000#32 reduces_S256x4096_S256 (.inl rfl) rfl) shapeCasts_S256_S256x1) broadcasts_S256x1_S256x4096 := rfl
  rw [e, minbc_apply]
  exact Finset.fold_congr fun c' _ => pay9_apply v0 v2 v4 v6 xh C hT hsq q c'

/-- `k0_pay12` (the second half's shifted exponentials) at row `q`, centroid `c`. -/
theorem pay12_apply (v1 : FVec Ideal S512x512 .bf16) (v3 : FVec Ideal S1x512 .f32) (v5 : FVec Ideal S512x4096 .bf16)
    (v7 : FVec Ideal S1x4096 .f32) (xh : Vec Ideal S256x512 .f32) (C : Fin 4096 → Fin 512 → EReal)
    (hT : ∀ (d : Fin 512) (c : Fin 4096), v5 (ix2 d c) = C c d)
    (hsq : ∀ c : Fin 4096, v7 (ix2 (0 : Fin 1) c) = ∑ d : Fin 512, C c d * C c d)
    (q : Fin 256) (c : Fin 4096) :
    k0_pay12 (F := Ideal) v1 v3 v5 v7 xh (ix2 q c)
      = wK (fun i => xh (ix2 q i)) (fun i d => v1 (ix2 i d)) (fun d => v3 (ix2 (0 : Fin 1) d)) C c := by
  have e : k0_pay12 (F := Ideal) v1 v3 v5 v7 xh
      = exp (subf (broadcastTo S256x4096 (shapeCast S256x1 (multiReduction .minimumf [1] S256 (distV v1 v3 v5 v7 xh) 0x7F800000#32 reduces_S256x4096_S256 (.inl rfl) rfl) shapeCasts_S256_S256x1) broadcasts_S256x1_S256x4096) (distV v1 v3 v5 v7 xh)) := rfl
  rw [e]
  refine (shiftexp_apply _ q c).trans ?_
  unfold wK
  rw [distV_apply v1 v3 v5 v7 xh C hT hsq q c]
  refine congrArg (fun m => Ideal.exp (m - _)) ?_
  exact Finset.fold_congr fun c' _ => distV_apply v1 v3 v5 v7 xh C hT hsq q c'

end Cert.KMeansKer

end
-- ==== Proof.KerTail.lean ====
/-
  The kernel body's combine stage read at an index: from a row of (unnormalised) softmax weights, the combination of the centroids, the single rescale by (1/Σ)·(named 1/√512), and the read-out.
-/
import proofs.«402103_j48155173323353_3_alg».proof.Proof.Gen.KernelIdeal.Frame
import proofs.«402103_j48155173323353_3_alg».proof.Proof.RowSpec
import proofs.«402103_j48155173323353_3_alg».proof.Proof.Layout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KMeansKer

open Idealize.ShloMosaic Idealize.ShloMosaic.ValueIdx Cert.KernelIdeal Cert.KernelIdeal.Gen Cert.KMeansRow Cert.KMeansLayout

/-- The kernel's named scale denotes 524288 / 11863283 = 1 / f32(√512) at the ideal values. -/
theorem inv_sqrt_d : Named.named (F := Ideal) Cert.KernelIdeal.κ "inv_sqrt_d" (φ := .f32) 0x3D3504F3#32
    = ((524288 / 11863283 : ℝ) : EReal) :=
  IdealRules.named_const.ideal_named_scalar _ _ _ _ rfl

/-! ## The two lane sums

  A sum over the second axis of a block, read at row `q`, is the `Fin`-indexed sum of the block's row `q`. -/

/-- The sum over the 4096 lanes of a [256, 4096] block, at row `q`. -/
theorem laneSum4096_apply (e : FVec Ideal S256x4096 .f32) (q : Fin 256) :
    multiReduction .add [1] S256 e 0x00000000#32 reduces_S256x4096_S256 (.inl rfl) rfl (ix1 q)
      = ∑ c : Fin 4096, e (ix2 q c) := by
  refine (Ideal.multiReduction_add_single e 0x00000000#32 reduces_S256x4096_S256 (.inl rfl) rfl (ix1 q)).trans ?_
  refine Finset.sum_congr rfl fun c _ => congrArg e (funext fun a => Fin.ext ?_)
  match a with
  | ⟨0, _⟩ => rfl
  | ⟨1, _⟩ => rfl

/-- The sum over the 512 lanes of a [256, 512] block, at row `q`. -/
theorem laneSum512_apply (y : FVec Ideal S256x512 .f32) (q : Fin 256) :
    multiReduction .add [1] S256 y 0x00000000#32 reduces_S256x512_S256 (.inl rfl) rfl (ix1 q)
      = ∑ d : Fin 512, y (ix2 q d) := by
  refine (Ideal.multiReduction_add_single y 0x00000000#32 reduces_S256x512_S256 (.inl rfl) rfl (ix1 q)).trans ?_
  refine Finset.sum_congr rfl fun d _ => congrArg y (funext fun a => Fin.ext ?_)
  match a with
  | ⟨0, _⟩ => rfl
  | ⟨1, _⟩ => rfl

/-! ## The combination: a [256, 4096] × [4096, 512] product

  The operand indices of the product at output index (q, d) and contraction coordinate c are (q, c) and (c, d). -/

theorem lhs_comb_0 (i : S256x512.Idx) (k : dot_S256x4096_S4096x512_S256x512_1_0_0_1_n_n.contr.Idx) :
    (dot_S256x4096_S4096x512_S256x512_1_0_0_1_n_n.lhsIdx i k 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl

theorem lhs_comb_1 (i : S256x512.Idx) (k : dot_S256x4096_S4096x512_S256x512_1_0_0_1_n_n.contr.Idx) :
    (dot_S256x4096_S4096x512_S256x512_1_0_0_1_n_n.lhsIdx i k 1).val = (k ⟨0, by decide⟩).val :=
  dot_S256x4096_S4096x512_S256x512_1_0_0_1_n_n.lhsIdx_val_of_single rfl i k

theorem rhs_comb_0 (i : S256x512.Idx) (k : dot_S256x4096_S4096x512_S256x512_1_0_0_1_n_n.contr.Idx) :
    (dot_S256x4096_S4096x512_S256x512_1_0_0_1_n_n.rhsIdx i k 0).val = (k ⟨0, by decide⟩).val :=
  dot_S256x4096_S4096x512_S256x512_1_0_0_1_n_n.rhsIdx_val_of_single rfl i k

theorem rhs_comb_1 (i : S256x512.Idx) (k : dot_S256x4096_S4096x512_S256x512_1_0_0_1_n_n.contr.Idx) :
    (dot_S256x4096_S4096x512_S256x512_1_0_0_1_n_n.rhsIdx i k 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- The product into the zero block, at (q, d): the sum over the centroids of weight times centroid coordinate. -/
theorem comb_apply (e : FVec Ideal S256x4096 .bf16) (v9 : FVec Ideal S4096x512 .bf16) (q : Fin 256) (d : Fin 512) :
    matmul dot_S256x4096_S4096x512_S256x512_1_0_0_1_n_n none e v9 (constant S256x512 .f32 0x00000000#32) (ix2 q d)
      = ∑ c : Fin 4096, e (ix2 q c) * v9 (ix2 c d) := by
  refine (Ideal.matmul_constant_zero_apply dot_S256x4096_S4096x512_S256x512_1_0_0_1_n_n none e v9 (ix2 q d)).trans ?_
  rw [← Equiv.sum_comp (contrEquiv1 dot_S256x4096_S4096x512_S256x512_1_0_0_1_n_n 4096 rfl rfl).symm]
  refine Finset.sum_congr rfl fun c _ => ?_
  have hc := contrEquiv1_symm_val dot_S256x4096_S4096x512_S256x512_1_0_0_1_n_n 4096 rfl rfl c
  have el : dot_S256x4096_S4096x512_S256x512_1_0_0_1_n_n.lhsIdx (ix2 q d) ((contrEquiv1 dot_S256x4096_S4096x512_S256x512_1_0_0_1_n_n 4096 rfl rfl).symm c) = ix2 q c :=
    funext fun a => Fin.ext (by
      match a with
      | ⟨0, _⟩ => exact lhs_comb_0 _ _
      | ⟨1, _⟩ => exact (lhs_comb_1 _ _).trans hc)
  have er : dot_S256x4096_S4096x512_S256x512_1_0_0_1_n_n.rhsIdx (ix2 q d) ((contrEquiv1 dot_S256x4096_S4096x512_S256x512_1_0_0_1_n_n 4096 rfl rfl).symm c) = ix2 c d :=
    funext fun a => Fin.ext (by
      match a with
      | ⟨0, _⟩ => exact (rhs_comb_0 _ _).trans hc
      | ⟨1, _⟩ => exact rhs_comb_1 _ _)
  rw [el, er]

/-! ## The rescale column (1/Σ)·(named 1/√512) -/

/-- The rescale column at row `q`: the quotient of 1 by the row's weight sum, times the named scale. -/
theorem scale_apply (e : FVec Ideal S256x4096 .f32) (q : Fin 256) (u : Fin 1) :
    mulf (divf (broadcast S256x1 (Scalar.ofBits (F := Ideal) .f32 0x3F800000#32))
            (shapeCast S256x1 (multiReduction .add [1] S256 e 0x00000000#32 reduces_S256x4096_S256 (.inl rfl) rfl)
              shapeCasts_S256_S256x1))
        (broadcast S256x1 (Named.named (F := Ideal) Cert.KernelIdeal.κ "inv_sqrt_d" (φ := .f32) 0x3D3504F3#32)) (ix2 q u)
      = Ideal.div 1 (∑ c : Fin 4096, e (ix2 q c)) * ((524288 / 11863283 : ℝ) : EReal) := by
  show Ideal.div (Ideal.ofBits .f32 0x3F800000#32)
        (shapeCast S256x1 (multiReduction .add [1] S256 e 0x00000000#32 reduces_S256x4096_S256 (.inl rfl) rfl)
          shapeCasts_S256_S256x1 (ix2 q u))
      * Named.named (F := Ideal) Cert.KernelIdeal.κ "inv_sqrt_d" (φ := .f32) 0x3D3504F3#32 = _
  rw [ofBits_one, inv_sqrt_d, shapeCast_a_a1_apply, laneSum4096_apply]

/-! ## The whole stage as a function of the weights block -/

/-- The combine stage from a block `e` of unnormalised weights: Σ_d ((e·C) · scale(e)) · w₂ + b₂, operation by operation. -/
def combine (v9 : FVec Ideal S4096x512 .bf16) (v11 : FVec Ideal S1x512 .f32) (v13 : FVec Ideal S1x1 .f32)
    (e : FVec Ideal S256x4096 .f32) : FVec Ideal S256x1 .f32 :=
  addf
    (shapeCast S256x1
      (multiReduction .add [1] S256
        (mulf
          (mulf
            (matmul dot_S256x4096_S4096x512_S256x512_1_0_0_1_n_n none (truncf .bf16 e bitsLt_bf16_f32) v9 (constant S256x512 .f32 0x00000000#32))
            (broadcastTo S256x512
              (mulf (divf (broadcast S256x1 (Scalar.ofBits (F := Ideal) .f32 0x3F800000#32))
                      (shapeCast S256x1 (multiReduction .add [1] S256 e 0x00000000#32 reduces_S256x4096_S256 (.inl rfl) rfl)
                        shapeCasts_S256_S256x1))
                (broadcast S256x1 (Named.named (F := Ideal) Cert.KernelIdeal.κ "inv_sqrt_d" (φ := .f32) 0x3D3504F3#32)))
              broadcasts_S256x1_S256x512))
          (broadcastTo S256x512 v11 broadcasts_S1x512_S256x512))
        0x00000000#32 reduces_S256x512_S256 (.inl rfl) rfl)
      shapeCasts_S256_S256x1)
    (broadcastTo S256x1 v13 broadcasts_S1x1_S256x1)

/-- The stage at row `q`. -/
theorem combine_apply (v9 : FVec Ideal S4096x512 .bf16) (v11 : FVec Ideal S1x512 .f32) (v13 : FVec Ideal S1x1 .f32)
    (e : FVec Ideal S256x4096 .f32) (q : Fin 256) (o : Fin 1) :
    combine v9 v11 v13 e (ix2 q o)
      = (∑ d : Fin 512, ((∑ c : Fin 4096, e (ix2 q c) * v9 (ix2 c d))
            * (Ideal.div 1 (∑ c : Fin 4096, e (ix2 q c)) * ((524288 / 11863283 : ℝ) : EReal))) * v11 (ix2 (0 : Fin 1) d))
          + v13 (ix2 (0 : Fin 1) (0 : Fin 1)) := by
  have ho : o = 0 := Subsingleton.elim _ _
  subst ho
  unfold combine
  rw [addf_apply, shapeCast_a_a1_apply, laneSum512_apply, broadcastTo_1b_ab_apply]
  refine congrArg (· + v13 (ix2 (0 : Fin 1) (0 : Fin 1))) (Finset.sum_congr rfl fun d _ => ?_)
  rw [mulf_apply, mulf_apply, broadcastTo_1b_ab_apply, broadcastTo_a1_ab_apply, scale_apply, comb_apply]
  rfl

/-- `k0_pay1` is the stage at the given weights. -/
theorem pay1_eq_combine (v9 : FVec Ideal S4096x512 .bf16) (v11 : FVec Ideal S1x512 .f32) (v13 : FVec Ideal S1x1 .f32)
    (v80 : FVec Ideal S256x4096 .f32) : k0_pay1 (F := Ideal) v9 v11 v13 v80 = combine v9 v11 v13 v80 := rfl

/-- `k0_pay11` is the stage at the weights exp(min − distance). -/
theorem pay11_eq_combine (v9 : FVec Ideal S4096x512 .bf16) (v11 : FVec Ideal S1x512 .f32) (v13 : FVec Ideal S1x1 .f32)
    (v33 v36 : FVec Ideal S256x4096 .f32) :
    k0_pay11 (F := Ideal) v9 v11 v13 v33 v36 = combine v9 v11 v13 (exp (subf v36 v33)) := rfl

/-- `k0_pay1` (second half: weights `v80` given) at row `q`. -/
theorem pay1_apply (v9 : FVec Ideal S4096x512 .bf16) (v11 : FVec Ideal S1x512 .f32) (v13 : FVec Ideal S1x1 .f32)
    (v80 : FVec Ideal S256x4096 .f32) (q : Fin 256) (o : Fin 1) :
    k0_pay1 (F := Ideal) v9 v11 v13 v80 (ix2 q o)
      = (∑ d : Fin 512, ((∑ c : Fin 4096, v80 (ix2 q c) * v9 (ix2 c d))
            * (Ideal.div 1 (∑ c : Fin 4096, v80 (ix2 q c)) * ((524288 / 11863283 : ℝ) : EReal))) * v11 (ix2 (0 : Fin 1) d))
          + v13 (ix2 (0 : Fin 1) (0 : Fin 1)) := by
  rw [pay1_eq_combine]
  exact combine_apply v9 v11 v13 v80 q o

/-- `k0_pay11` (first half: distances `v33` and their broadcast row minimum `v36` given) at row `q`. -/
theorem pay11_apply (v9 : FVec Ideal S4096x512 .bf16) (v11 : FVec Ideal S1x512 .f32) (v13 : FVec Ideal S1x1 .f32)
    (v33 v36 : FVec Ideal S256x4096 .f32) (q : Fin 256) (o : Fin 1) :
    k0_pay11 (F := Ideal) v9 v11 v13 v33 v36 (ix2 q o)
      = (∑ d : Fin 512, ((∑ c : Fin 4096, Ideal.exp (v36 (ix2 q c) - v33 (ix2 q c)) * v9 (ix2 c d))
            * (Ideal.div 1 (∑ c : Fin 4096, Ideal.exp (v36 (ix2 q c) - v33 (ix2 q c))) * ((524288 / 11863283 : ℝ) : EReal)))
              * v11 (ix2 (0 : Fin 1) d))
          + v13 (ix2 (0 : Fin 1) (0 : Fin 1)) := by
  rw [pay11_eq_combine]
  exact combine_apply v9 v11 v13 (exp (subf v36 v33)) q o

end Cert.KMeansKer

end
-- ==== Proof.KerRow.lean ====
/-
  What the kernel body leaves in the output window's [512, 1] buffer: entry p is the kernel arrangement of the row
  function at row p of the staged x block. The body writes the buffer in two stores of 256 rows; both store the same
  function of the row (the second half computes the shifted exponentials in one stage, the first half in two).
-/
import proofs.«402103_j48155173323353_3_alg».proof.Proof.Gen.KernelIdeal.Frame
import proofs.«402103_j48155173323353_3_alg».proof.Proof.RowSpec
import proofs.«402103_j48155173323353_3_alg».proof.Proof.KerDist
import proofs.«402103_j48155173323353_3_alg».proof.Proof.KerTail
import Idealize.ShloMosaic.Lib.ValueIdx
import Idealize.ShloMosaic.Lib.Pipeline.Value

set_option maxRecDepth 16384

noncomputable section

namespace Cert.KMeansKer

open Idealize.ShloMosaic Idealize.ShloMosaic.ValueIdx Cert.KernelIdeal Cert.KernelIdeal.Gen Cert.KMeansRow

theorem hz2 : (![0, 0] : Fin 2 → Nat) = fun _ => 0 := funext fun a => by fin_cases a <;> rfl

/-- Row `p` of a [512, 512] block, as a function of the column. -/
abbrev rowAt (x0 : Vec Ideal S512x512 .f32) (p : Fin 512) : Fin 512 → EReal := fun i => x0 (ix2 p i)

/-- The row function at row `p` of the staged blocks: x from window 0, W1 from 1, b1 from 2, the codebook from 3,
    w2 from 6 and b2 from 7. -/
def rowOut (x0 : Vec Ideal S512x512 .f32) (x1 : Vec Ideal S512x512 .bf16) (x2 : Vec Ideal S1x512 .f32)
    (x3 : Vec Ideal S4096x512 .bf16) (x6 : Vec Ideal S1x512 .f32) (x7 : Vec Ideal S1x1 .f32) (p : Fin 512) : EReal :=
  rowKer (rowAt x0 p) (fun i d => x1 (ix2 i d)) (fun d => x2 (ix2 (0 : Fin 1) d)) (fun c d => x3 (ix2 c d))
    (fun d => x6 (ix2 (0 : Fin 1) d)) (x7 (ix2 (0 : Fin 1) (0 : Fin 1)))

/-- The first half of the staged x block, read at (q, i): row q. -/
theorem ld_lo (x0 : Vec Ideal S512x512 .f32) (q : Fin 256) (i : Fin 512) :
    View.ld x0 r0_6 (ix2 q i) = x0 (ix2 (⟨q.val, by omega⟩ : Fin 512) i) :=
  congrArg x0 (funext fun a => Fin.ext (by
    match a with
    | ⟨0, _⟩ => show 0 + 1 * q.val = q.val; omega
    | ⟨1, _⟩ => show 0 + 1 * i.val = i.val; omega))

/-- The second half, read at (q, i): row 256 + q. -/
theorem ld_hi (x0 : Vec Ideal S512x512 .f32) (q : Fin 256) (i : Fin 512) :
    View.ld x0 r0_8 (ix2 q i) = x0 (ix2 (⟨256 + q.val, by omega⟩ : Fin 512) i) :=
  congrArg x0 (funext fun a => Fin.ext (by
    match a with
    | ⟨0, _⟩ => show 256 + 1 * q.val = 256 + q.val; omega
    | ⟨1, _⟩ => show 0 + 1 * i.val = i.val; omega))

/-- Row q of the first half is row q of the block. -/
theorem ldRow_lo (x0 : Vec Ideal S512x512 .f32) (q : Fin 256) :
    (fun i : Fin 512 => View.ld x0 r0_6 (ix2 q i)) = rowAt x0 (⟨q.val, by omega⟩ : Fin 512) :=
  funext fun i => ld_lo x0 q i

/-- Row q of the second half is row 256 + q of the block. -/
theorem ldRow_hi (x0 : Vec Ideal S512x512 .f32) (q : Fin 256) :
    (fun i : Fin 512 => View.ld x0 r0_8 (ix2 q i)) = rowAt x0 (⟨256 + q.val, by omega⟩ : Fin 512) :=
  funext fun i => ld_hi x0 q i

section
variable (x0 : Vec Ideal S512x512 .f32) (x1 : Vec Ideal S512x512 .bf16) (x2 : Vec Ideal S1x512 .f32)
  (x3 : Vec Ideal S4096x512 .bf16) (x4 : Vec Ideal S512x4096 .bf16) (x5 : Vec Ideal S1x4096 .f32)
  (x6 : Vec Ideal S1x512 .f32) (x7 : Vec Ideal S1x1 .f32)

/-- The second store's payload at (q, o): the row function at row 256 + q. -/
theorem payHi_apply
    (hT : ∀ (d : Fin 512) (c : Fin 4096), x4 (ix2 d c) = x3 (ix2 c d))
    (hsq : ∀ c : Fin 4096, x5 (ix2 (0 : Fin 1) c) = ∑ d : Fin 512, x3 (ix2 c d) * x3 (ix2 c d))
    (q : Fin 256) (o : Fin 1) :
    k0_pay1 (F := Ideal) (k0_pay6 (View.ld x3 r0_4)) (k0_pay7 (View.ld x6 r0_1)) (k0_pay8 (View.ld x7 r0_5))
        (k0_pay12 (k0_pay2 (View.ld x1 r0_0)) (k0_pay3 (View.ld x2 r0_1)) (k0_pay4 (View.ld x4 r0_2)) (k0_pay5 (View.ld x5 r0_3))
          (View.ld x0 r0_8)) (ix2 q o)
      = rowOut x0 x1 x2 x3 x6 x7 (⟨256 + q.val, by omega⟩ : Fin 512) := by
  have e1 : k0_pay2 (F := Ideal) (View.ld x1 r0_0) = x1 := by
    unfold k0_pay2; rw [shapeCast_self, View.ld_unit_zero (S := S512x512) hz2]
  have e2 : k0_pay3 (F := Ideal) (View.ld x2 r0_1) = x2 := by
    unfold k0_pay3; rw [shapeCast_self, View.ld_unit_zero (S := S1x512) hz2]
  have e4 : k0_pay4 (F := Ideal) (View.ld x4 r0_2) = x4 := by
    unfold k0_pay4; rw [shapeCast_self, View.ld_unit_zero (S := S512x4096) hz2]
  have e5 : k0_pay5 (F := Ideal) (View.ld x5 r0_3) = x5 := by
    unfold k0_pay5; rw [shapeCast_self, View.ld_unit_zero (S := S1x4096) hz2]
  have e3 : k0_pay6 (F := Ideal) (View.ld x3 r0_4) = x3 := by
    unfold k0_pay6; rw [shapeCast_self, View.ld_unit_zero (S := S4096x512) hz2]
  have e6 : k0_pay7 (F := Ideal) (View.ld x6 r0_1) = x6 := by
    unfold k0_pay7; rw [shapeCast_self, View.ld_unit_zero (S := S1x512) hz2]
  have e7 : k0_pay8 (F := Ideal) (View.ld x7 r0_5) = x7 := by
    unfold k0_pay8; rw [shapeCast_self, View.ld_unit_zero (S := S1x1) hz2]
  rw [e1, e2, e3, e4, e5, e6, e7]
  refine (pay1_apply x3 x6 x7 _ q o).trans ?_
  have hE : ∀ c : Fin 4096, k0_pay12 (F := Ideal) x1 x2 x4 x5 (View.ld x0 r0_8) (ix2 q c)
      = wK (rowAt x0 (⟨256 + q.val, by omega⟩ : Fin 512)) (fun i d => x1 (ix2 i d)) (fun d => x2 (ix2 (0 : Fin 1) d))
          (fun c d => x3 (ix2 c d)) c := fun c => by
    refine (pay12_apply x1 x2 x4 x5 (View.ld x0 r0_8) (fun c d => x3 (ix2 c d)) hT hsq q c).trans ?_
    rw [ldRow_hi]
  simp only [hE]
  rfl

/-- The first store's payload at (q, o): the row function at row q. -/
theorem payLo_apply
    (hT : ∀ (d : Fin 512) (c : Fin 4096), x4 (ix2 d c) = x3 (ix2 c d))
    (hsq : ∀ c : Fin 4096, x5 (ix2 (0 : Fin 1) c) = ∑ d : Fin 512, x3 (ix2 c d) * x3 (ix2 c d))
    (q : Fin 256) (o : Fin 1) :
    k0_pay11 (F := Ideal) (k0_pay6 (View.ld x3 r0_4)) (k0_pay7 (View.ld x6 r0_1)) (k0_pay8 (View.ld x7 r0_5))
        (k0_pay9 (View.ld x1 r0_0) (View.ld x2 r0_1) (View.ld x4 r0_2) (View.ld x5 r0_3) (View.ld x0 r0_6))
        (k0_pay10 (View.ld x1 r0_0) (View.ld x2 r0_1) (View.ld x4 r0_2) (View.ld x5 r0_3) (View.ld x0 r0_6)) (ix2 q o)
      = rowOut x0 x1 x2 x3 x6 x7 (⟨q.val, by omega⟩ : Fin 512) := by
  have e3 : k0_pay6 (F := Ideal) (View.ld x3 r0_4) = x3 := by
    unfold k0_pay6; rw [shapeCast_self, View.ld_unit_zero (S := S4096x512) hz2]
  have e6 : k0_pay7 (F := Ideal) (View.ld x6 r0_1) = x6 := by
    unfold k0_pay7; rw [shapeCast_self, View.ld_unit_zero (S := S1x512) hz2]
  have e7 : k0_pay8 (F := Ideal) (View.ld x7 r0_5) = x7 := by
    unfold k0_pay8; rw [shapeCast_self, View.ld_unit_zero (S := S1x1) hz2]
  rw [e3, e6, e7, View.ld_unit_zero (S := S512x512) hz2 _ x1, View.ld_unit_zero (S := S1x512) hz2 _ x2,
    View.ld_unit_zero (S := S512x4096) hz2 _ x4, View.ld_unit_zero (S := S1x4096) hz2 _ x5]
  refine (pay11_apply x3 x6 x7 _ _ q o).trans ?_
  have hD : ∀ c : Fin 4096, k0_pay9 (F := Ideal) x1 x2 x4 x5 (View.ld x0 r0_6) (ix2 q c)
      = dist (rowAt x0 (⟨q.val, by omega⟩ : Fin 512)) (fun i d => x1 (ix2 i d)) (fun d => x2 (ix2 (0 : Fin 1) d))
          (fun c d => x3 (ix2 c d)) c := fun c => by
    refine (pay9_apply x1 x2 x4 x5 (View.ld x0 r0_6) (fun c d => x3 (ix2 c d)) hT hsq q c).trans ?_
    rw [ldRow_lo]
  have hM : ∀ c : Fin 4096, k0_pay10 (F := Ideal) x1 x2 x4 x5 (View.ld x0 r0_6) (ix2 q c)
      = Finset.univ.fold min ⊤ (dist (rowAt x0 (⟨q.val, by omega⟩ : Fin 512)) (fun i d => x1 (ix2 i d))
          (fun d => x2 (ix2 (0 : Fin 1) d)) (fun c d => x3 (ix2 c d))) := fun c => by
    refine (pay10_apply x1 x2 x4 x5 (View.ld x0 r0_6) (fun c d => x3 (ix2 c d)) hT hsq q c).trans ?_
    rw [ldRow_lo]
  simp only [hD, hM]
  rfl

/-- After the body, the output window's buffer at row `(y 0)` holds the row function at that row of the x block. -/
theorem out_row
    (hT : ∀ (d : Fin 512) (c : Fin 4096), x4 (ix2 d c) = x3 (ix2 c d))
    (hsq : ∀ c : Fin 4096, x5 (ix2 (0 : Fin 1) c) = ∑ d : Fin 512, x3 (ix2 c d) * x3 (ix2 c d))
    (y : S512x1.Idx) :
    out0_8 (F := Ideal) x0 x1 x2 x3 x4 x5 x6 x7 y = rowOut x0 x1 x2 x3 x6 x7 (⟨(y 0).val, (y 0).isLt⟩ : Fin 512) := by
  have hHi : ∀ x : S256x1.Idx,
      k0_pay1 (F := Ideal) (k0_pay6 (View.ld x3 r0_4)) (k0_pay7 (View.ld x6 r0_1)) (k0_pay8 (View.ld x7 r0_5))
        (k0_pay12 (k0_pay2 (View.ld x1 r0_0)) (k0_pay3 (View.ld x2 r0_1)) (k0_pay4 (View.ld x4 r0_2)) (k0_pay5 (View.ld x5 r0_3))
          (View.ld x0 r0_8)) x
        = rowOut x0 x1 x2 x3 x6 x7 (⟨(r0_9.emb x 0).val, (r0_9.emb x 0).isLt⟩ : Fin 512) := fun x => by
    obtain ⟨q, o, rfl⟩ : ∃ (q : Fin 256) (o : Fin 1), x = ix2 q o := ⟨x 0, x 1, eq_ix2 x⟩
    refine (payHi_apply x0 x1 x2 x3 x4 x5 x6 x7 hT hsq q o).trans (congrArg (rowOut x0 x1 x2 x3 x6 x7) (Fin.ext ?_))
    show 256 + q.val = 256 + 1 * q.val
    omega
  have hLo : ∀ x : S256x1.Idx,
      k0_pay11 (F := Ideal) (k0_pay6 (View.ld x3 r0_4)) (k0_pay7 (View.ld x6 r0_1)) (k0_pay8 (View.ld x7 r0_5))
        (k0_pay9 (View.ld x1 r0_0) (View.ld x2 r0_1) (View.ld x4 r0_2) (View.ld x5 r0_3) (View.ld x0 r0_6))
        (k0_pay10 (View.ld x1 r0_0) (View.ld x2 r0_1) (View.ld x4 r0_2) (View.ld x5 r0_3) (View.ld x0 r0_6)) x
        = rowOut x0 x1 x2 x3 x6 x7 (⟨(r0_7.emb x 0).val, (r0_7.emb x 0).isLt⟩ : Fin 512) := fun x => by
    obtain ⟨q, o, rfl⟩ : ∃ (q : Fin 256) (o : Fin 1), x = ix2 q o := ⟨x 0, x 1, eq_ix2 x⟩
    refine (payLo_apply x0 x1 x2 x3 x4 x5 x6 x7 hT hsq q o).trans (congrArg (rowOut x0 x1 x2 x3 x6 x7) (Fin.ext ?_))
    show q.val = 0 + 1 * q.val
    omega
  unfold out0_8
  refine View.canon_apply_of_pieces (Val := Elt Ideal) (S := S512x1) (e := EltTy.f32)
    (fun y : S512x1.Idx => rowOut x0 x1 x2 x3 x6 x7 (⟨(y 0).val, (y 0).isLt⟩ : Fin 512)) _ ?_ y (cover0_8 _ _ y)
  intro p hp
  simp only [List.mem_cons, List.mem_nil_iff, or_false] at hp
  rcases hp with rfl | rfl
  · exact hHi
  · exact hLo

end

end Cert.KMeansKer

end
-- ==== Proof.HostReads.lean ====
/-
  The arrays the kernel's region finds, read at an index: each is written by the host operations before the region (a reshape, a change of float format, a transpose, the centroids' squared norms) from the argument arrays.
-/
import proofs.«402103_j48155173323353_3_alg».proof.Proof.Gen.KernelIdeal.Frame
import proofs.«402103_j48155173323353_3_alg».proof.Proof.RowSpec
import proofs.«402103_j48155173323353_3_alg».proof.Proof.Layout
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KMeansKer

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- x, flattened to [32768, 512]: row `r` is (batch r / 4096, position r % 4096). -/
theorem V_v0 (c : Dev nD) (bi : Fin 8) (s : Fin 4096) (i : Fin 512) (r : Fin 32768) (hr : r.val = bi.val * 4096 + s.val) :
    V m c main_v0 (ix2 r i) = m ((c : Thread nD τ).loc main_arg0) (ix3 bi s i) := by
  have e : (V m c main_v0 : S32768x512.Idx → EReal)
      = shapeCast S32768x512 (m ((c : Thread nD τ).loc main_arg0) : S8x4096x512.Idx → EReal) shapeCasts_S8x4096x512_S32768x512 := by
    show StableHlo.after hostOps0 (fun b => m (c, b)) (Proc.devRef .tc main_v0) = _
    after_results <;> rfl
  refine (congrFun e (ix2 r i)).trans ?_
  -- the two indices have the same row-major position: (bi·4096 + s)·512 + i = r·512 + i
  refine shapeCast_apply _ _ (ix2 r i) (ix3 bi s i) ?_
  rw [Shape.rowMajor_val_three, Shape.rowMajor_val_two]
  show (bi.val * 4096 + s.val) * 512 + i.val = r.val * 512 + i.val
  rw [hr]

/-- W1 in the narrow format: the same numbers. -/
theorem V_v1 (c : Dev nD) (i d : Fin 512) : V m c main_v1 (ix2 i d) = m ((c : Thread nD τ).loc main_arg1) (ix2 i d) := by
  have e : (V m c main_v1 : S512x512.Idx → EReal)
      = truncf (F := Ideal) .bf16 (m ((c : Thread nD τ).loc main_arg1) : S512x512.Idx → EReal) bitsLt_bf16_f32 := by
    show StableHlo.after hostOps0 (fun b => m (c, b)) (Proc.devRef .tc main_v1) = _
    after_results <;> rfl
  exact congrFun e (ix2 i d)

/-- The codebook in the narrow format: the same numbers. -/
theorem V_v2 (c : Dev nD) (k : Fin 4096) (d : Fin 512) : V m c main_v2 (ix2 k d) = m ((c : Thread nD τ).loc main_arg3) (ix2 k d) := by
  have e : (V m c main_v2 : S4096x512.Idx → EReal)
      = truncf (F := Ideal) .bf16 (m ((c : Thread nD τ).loc main_arg3) : S4096x512.Idx → EReal) bitsLt_bf16_f32 := by
    show StableHlo.after hostOps0 (fun b => m (c, b)) (Proc.devRef .tc main_v2) = _
    after_results <;> rfl
  exact congrFun e (ix2 k d)

/-- The transposed codebook in the narrow format. -/
theorem V_v4 (c : Dev nD) (d : Fin 512) (k : Fin 4096) : V m c main_v4 (ix2 d k) = m ((c : Thread nD τ).loc main_arg3) (ix2 k d) := by
  have e : (V m c main_v4 : S512x4096.Idx → EReal)
      = truncf (F := Ideal) .bf16
          (transpose S512x4096 [1, 0] (m ((c : Thread nD τ).loc main_arg3) : S4096x512.Idx → EReal) transposes_S4096x512_S512x4096_1_0)
          bitsLt_bf16_f32 := by
    show StableHlo.after hostOps0 (fun b => m (c, b)) (Proc.devRef .tc main_v4) = _
    after_results <;> rfl
  refine (congrFun e (ix2 d k)).trans ?_
  exact transpose_ix2_apply (m ((c : Thread nD τ).loc main_arg3) : S4096x512.Idx → EReal) transposes_S4096x512_S512x4096_1_0 d k

/-- The codebook argument, and the squared-norm row the region finds, at their literal types (so that their entries
    multiply and add as extended reals). -/
abbrev centArr (c : Dev nD) : S4096x512.Idx → EReal := m ((c : Thread nD τ).loc main_arg3)
abbrev csqArr (c : Dev nD) : S1x4096.Idx → EReal := V m c main_v7

/-- The centroids' squared norms, as one row. -/
theorem V_v7 (c : Dev nD) (k : Fin 4096) :
    csqArr m c (ix2 (0 : Fin 1) k) = ∑ d : Fin 512, centArr m c (ix2 k d) * centArr m c (ix2 k d) := by
  have hR : S4096x512.Reduces [1] S4096 := by decide
  have e : (V m c main_v7 : S1x4096.Idx → EReal)
      = shapeCast S1x4096
          (Host.reduceAdd (F := Ideal)
            (mulf (m ((c : Thread nD τ).loc main_arg3) : FVec Ideal S4096x512 .f32) (m ((c : Thread nD τ).loc main_arg3) : FVec Ideal S4096x512 .f32))
            (constant (F := Ideal) S_ .f32 0x00000000#32) reducesTo_S4096x512_S4096_d1 h_S_)
          shapeCasts_S4096_S1x4096 := by
    show StableHlo.after hostOps0 (fun b => m (c, b)) (Proc.devRef .tc main_v7) = _
    after_results <;> rfl
  -- entry (0, k) of the row is entry k of the vector of sums: the initial value 0 plus, over the 512 coordinates d
  -- of the summed axis, the product of the codebook with itself at (k, d)
  refine (congrFun e (ix2 (0 : Fin 1) k)).trans ?_
  refine (shapeCast_a_1a_apply _ shapeCasts_S4096_S1x4096 (0 : Fin 1) k).trans ?_
  refine (Ideal.hostReduceAdd_single reducesTo_S4096x512_S4096_d1 hR _ _ (ix1 k)).trans ?_
  show Ideal.ofBits .f32 0x00000000#32
      + ∑ d : Fin 512, mulf (m ((c : Thread nD τ).loc main_arg3) : FVec Ideal S4096x512 .f32) (m ((c : Thread nD τ).loc main_arg3) : FVec Ideal S4096x512 .f32) (hR.lift (ix1 k) d)
    = ∑ d : Fin 512, centArr m c (ix2 k d) * centArr m c (ix2 k d)
  rw [Ideal.ofBits_zero_f32, zero_add]
  refine Finset.sum_congr rfl fun d _ => ?_
  have hl : hR.lift (ix1 k) d = ix2 k d := by
    funext a
    match a with
    | ⟨0, _⟩ => rfl
    | ⟨1, _⟩ => rfl
  rw [hl]
  rfl

/-- b1 as one row. -/
theorem V_v8 (c : Dev nD) (d : Fin 512) : V m c main_v8 (ix2 (0 : Fin 1) d) = m ((c : Thread nD τ).loc main_arg2) (ix1 d) := by
  have e : (V m c main_v8 : S1x512.Idx → EReal)
      = shapeCast S1x512 (m ((c : Thread nD τ).loc main_arg2) : S512.Idx → EReal) shapeCasts_S512_S1x512 := by
    show StableHlo.after hostOps0 (fun b => m (c, b)) (Proc.devRef .tc main_v8) = _
    after_results <;> rfl
  refine (congrFun e (ix2 (0 : Fin 1) d)).trans ?_
  exact shapeCast_a_1a_apply (m ((c : Thread nD τ).loc main_arg2) : S512.Idx → EReal) shapeCasts_S512_S1x512 (0 : Fin 1) d

/-- W2 (a column) as one row. -/
theorem V_v9 (c : Dev nD) (d : Fin 512) : V m c main_v9 (ix2 (0 : Fin 1) d) = m ((c : Thread nD τ).loc main_arg4) (ix2 d (0 : Fin 1)) := by
  have e : (V m c main_v9 : S1x512.Idx → EReal)
      = shapeCast S1x512 (m ((c : Thread nD τ).loc main_arg4) : S512x1.Idx → EReal) shapeCasts_S512x1_S1x512 := by
    show StableHlo.after hostOps0 (fun b => m (c, b)) (Proc.devRef .tc main_v9) = _
    after_results <;> rfl
  refine (congrFun e (ix2 (0 : Fin 1) d)).trans ?_
  -- the same row-major position: d·1 + 0 = 0·512 + d
  refine shapeCast_apply _ _ (ix2 (0 : Fin 1) d) (ix2 d (0 : Fin 1)) ?_
  rw [Shape.rowMajor_val_two, Shape.rowMajor_val_two]
  show d.val * 1 + 0 = 0 * 512 + d.val
  omega

/-- b2 as a 1×1 block. -/
theorem V_v10 (c : Dev nD) : V m c main_v10 (ix2 (0 : Fin 1) (0 : Fin 1)) = m ((c : Thread nD τ).loc main_arg5) (ix1 (0 : Fin 1)) := by
  have e : (V m c main_v10 : S1x1.Idx → EReal)
      = shapeCast S1x1 (m ((c : Thread nD τ).loc main_arg5) : S1.Idx → EReal) shapeCasts_S1_S1x1 := by
    show StableHlo.after hostOps0 (fun b => m (c, b)) (Proc.devRef .tc main_v10) = _
    after_results <;> rfl
  refine (congrFun e (ix2 (0 : Fin 1) (0 : Fin 1))).trans ?_
  exact shapeCast_a_1a_apply (m ((c : Thread nD τ).loc main_arg5) : S1.Idx → EReal) shapeCasts_S1_S1x1 (0 : Fin 1) (0 : Fin 1)

end Cert.KMeansKer

end
-- ==== Proof.KerValue.lean ====
/-
  The idealized kernel program's result as a function of its argument arrays.

  The region runs over 64 points; point t stages rows 512 t … 512 t + 511 of the flattened x and the whole of every other
  operand, and writes back rows 512 t … 512 t + 511 of the [32768, 1] output. Each written entry is the kernel arrangement
  of the row function at that row of x (`out_row`), with the weights read through the host operations before the region
  (`V_v0` … `V_v10`). The 64 blocks cover the output, and the one host operation after the region reshapes it to
  [8, 4096, 1]: entry (bi, s, 0) is row 4096 bi + s.
-/
import proofs.«402103_j48155173323353_3_alg».proof.Proof.Gen.KernelIdeal.Frame
import proofs.«402103_j48155173323353_3_alg».proof.Proof.RowSpec
import proofs.«402103_j48155173323353_3_alg».proof.Proof.KerRow
import proofs.«402103_j48155173323353_3_alg».proof.Proof.HostReads
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

namespace Cert.KMeansKer

open Idealize.ShloMosaic Idealize.ShloMosaic.ValueIdx Idealize.ShloMosaic.TcCoe Idealize.SL.Sem
open Cert.KernelIdeal Cert.KernelIdeal.Gen Cert.KMeansRow
open Idealize.ShloMosaic.Pipeline (Dat)

variable (m : (ℓ : Loc nD τ sig) → Buf (Elt Ideal) ℓ) (ρ : Dev nD → PrngReg)

/-! ## The argument arrays and the staged blocks, at their literal types -/

abbrev a0 (c : Dev nD) : S8x4096x512.Idx → EReal := m ((c : Thread nD τ).loc main_arg0)
abbrev a1 (c : Dev nD) : S512x512.Idx → EReal := m ((c : Thread nD τ).loc main_arg1)
abbrev a2 (c : Dev nD) : S512.Idx → EReal := m ((c : Thread nD τ).loc main_arg2)
abbrev a3 (c : Dev nD) : S4096x512.Idx → EReal := m ((c : Thread nD τ).loc main_arg3)
abbrev a4 (c : Dev nD) : S512x1.Idx → EReal := m ((c : Thread nD τ).loc main_arg4)
abbrev a5 (c : Dev nD) : S1.Idx → EReal := m ((c : Thread nD τ).loc main_arg5)

abbrev xb0 (c : Dev nD) (t : Fin cfg0.N) : Vec Ideal S512x512 .f32 := iblk m c 0 t
abbrev xb1 (c : Dev nD) (t : Fin cfg0.N) : Vec Ideal S512x512 .bf16 := iblk m c 1 t
abbrev xb2 (c : Dev nD) (t : Fin cfg0.N) : Vec Ideal S1x512 .f32 := iblk m c 2 t
abbrev xb3 (c : Dev nD) (t : Fin cfg0.N) : Vec Ideal S4096x512 .bf16 := iblk m c 3 t
abbrev xb4 (c : Dev nD) (t : Fin cfg0.N) : Vec Ideal S512x4096 .bf16 := iblk m c 4 t
abbrev xb5 (c : Dev nD) (t : Fin cfg0.N) : Vec Ideal S1x4096 .f32 := iblk m c 5 t
abbrev xb6 (c : Dev nD) (t : Fin cfg0.N) : Vec Ideal S1x512 .f32 := iblk m c 6 t
abbrev xb7 (c : Dev nD) (t : Fin cfg0.N) : Vec Ideal S1x1 .f32 := iblk m c 7 t

/-- The row function at (batch bi, position s) of the argument arrays. -/
def rowArgs (c : Dev nD) (bi : Fin 8) (s : Fin 4096) : EReal :=
  rowKer (fun i => a0 m c (ix3 bi s i)) (fun i d => a1 m c (ix2 i d)) (fun d => a2 m c (ix1 d)) (fun k d => a3 m c (ix2 k d))
    (fun d => a4 m c (ix2 d (0 : Fin 1))) (a5 m c (ix1 (0 : Fin 1)))

/-! ## The index maps, decided over the 64 points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem N64 : cfg0.N = 64 := N_0

/-! ## Each staged block, read at an index, is the region's array there -/

theorem xb0_apply (c : Dev nD) (t : Fin cfg0.N) (p i : Fin 512) (r : Fin 32768) (hr : r.val = 512 * t.val + p.val) :
    xb0 m c t (ix2 p i) = V m c main_v0 (ix2 r i) := by
  obtain ⟨e0, e1, -⟩ := idx_facts t
  unfold xb0 iblk
  rw [View.read_apply]
  show V m c main_v0 _ = V m c main_v0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 512 + 1 * i.val = i.val; rw [e1]; omega

theorem xb1_apply (c : Dev nD) (t : Fin cfg0.N) (i d : Fin 512) : xb1 m c t (ix2 i d) = V m c main_v1 (ix2 i d) := by
  obtain ⟨-, -, e0, e1, -⟩ := idx_facts t
  unfold xb1 iblk
  rw [View.read_apply]
  show V m c main_v1 _ = V m c main_v1 _
  congr 1
  funext a
  apply Fin.ext
  match a with
  | ⟨0, _⟩ => show win0_1.index t (0 : Fin 2) * 512 + 1 * i.val = i.val; rw [e0]; omega
  | ⟨1, _⟩ => show win0_1.index t (1 : Fin 2) * 512 + 1 * d.val = d.val; rw [e1]; omega

theorem xb2_apply (c : Dev nD) (t : Fin cfg0.N) (u : Fin 1) (d : Fin 512) : xb2 m c t (ix2 u d) = V m c main_v8 (ix2 u d) := by
  obtain ⟨-, -, -, -, e0, e1, -⟩ := idx_facts t
  unfold xb2 iblk
  rw [View.read_apply]
  show V m c main_v8 _ = V m c main_v8 _
  congr 1
  funext a
  apply Fin.ext
  match a with
  | ⟨0, _⟩ => show win0_2.index t (0 : Fin 2) * 1 + 1 * u.val = u.val; rw [e0]; omega
  | ⟨1, _⟩ => show win0_2.index t (1 : Fin 2) * 512 + 1 * d.val = d.val; rw [e1]; omega

theorem xb3_apply (c : Dev nD) (t : Fin cfg0.N) (k : Fin 4096) (d : Fin 512) : xb3 m c t (ix2 k d) = V m c main_v2 (ix2 k d) := by
  obtain ⟨-, -, -, -, -, -, e0, e1, -⟩ := idx_facts t
  unfold xb3 iblk
  rw [View.read_apply]
  show V m c main_v2 _ = V m c main_v2 _
  congr 1
  funext a
  apply Fin.ext
  match a with
  | ⟨0, _⟩ => show win0_3.index t (0 : Fin 2) * 4096 + 1 * k.val = k.val; rw [e0]; omega
  | ⟨1, _⟩ => show win0_3.index t (1 : Fin 2) * 512 + 1 * d.val = d.val; rw [e1]; omega

theorem xb4_apply (c : Dev nD) (t : Fin cfg0.N) (d : Fin 512) (k : Fin 4096) : xb4 m c t (ix2 d k) = V m c main_v4 (ix2 d k) := by
  obtain ⟨-, -, -, -, -, -, -, -, e0, e1, -⟩ := idx_facts t
  unfold xb4 iblk
  rw [View.read_apply]
  show V m c main_v4 _ = V m c main_v4 _
  congr 1
  funext a
  apply Fin.ext
  match a with
  | ⟨0, _⟩ => show win0_4.index t (0 : Fin 2) * 512 + 1 * d.val = d.val; rw [e0]; omega
  | ⟨1, _⟩ => show win0_4.index t (1 : Fin 2) * 4096 + 1 * k.val = k.val; rw [e1]; omega

theorem xb5_apply (c : Dev nD) (t : Fin cfg0.N) (u : Fin 1) (k : Fin 4096) : xb5 m c t (ix2 u k) = V m c main_v7 (ix2 u k) := by
  obtain ⟨-, -, -, -, -, -, -, -, -, -, e0, e1, -⟩ := idx_facts t
  unfold xb5 iblk
  rw [View.read_apply]
  show V m c main_v7 _ = V m c main_v7 _
  congr 1
  funext a
  apply Fin.ext
  match a with
  | ⟨0, _⟩ => show win0_5.index t (0 : Fin 2) * 1 + 1 * u.val = u.val; rw [e0]; omega
  | ⟨1, _⟩ => show win0_5.index t (1 : Fin 2) * 4096 + 1 * k.val = k.val; rw [e1]; omega

theorem xb6_apply (c : Dev nD) (t : Fin cfg0.N) (u : Fin 1) (d : Fin 512) : xb6 m c t (ix2 u d) = V m c main_v9 (ix2 u d) := by
  obtain ⟨-, -, -, -, -, -, -, -, -, -, -, -, e0, e1, -⟩ := idx_facts t
  unfold xb6 iblk
  rw [View.read_apply]
  show V m c main_v9 _ = V m c main_v9 _
  congr 1
  funext a
  apply Fin.ext
  match a with
  | ⟨0, _⟩ => show win0_6.index t (0 : Fin 2) * 1 + 1 * u.val = u.val; rw [e0]; omega
  | ⟨1, _⟩ => show win0_6.index t (1 : Fin 2) * 512 + 1 * d.val = d.val; rw [e1]; omega

theorem xb7_apply (c : Dev nD) (t : Fin cfg0.N) (u v : Fin 1) : xb7 m c t (ix2 u v) = V m c main_v10 (ix2 u v) := by
  obtain ⟨-, -, -, -, -, -, -, -, -, -, -, -, -, -, e0, e1, -⟩ := idx_facts t
  unfold xb7 iblk
  rw [View.read_apply]
  show V m c main_v10 _ = V m c main_v10 _
  congr 1
  funext a
  apply Fin.ext
  match a with
  | ⟨0, _⟩ => show win0_7.index t (0 : Fin 2) * 1 + 1 * u.val = u.val; rw [e0]; omega
  | ⟨1, _⟩ => show win0_7.index t (1 : Fin 2) * 1 + 1 * v.val = v.val; rw [e1]; omega

/-! ## What a point's body leaves at a row of its output block -/

/-- Row `p` of point `t`'s output block is the row function at row 512 t + p of x, i.e. at (bi, s) with
    4096 bi + s = 512 t + p. -/
theorem rowOut_blocks (c : Dev nD) (t : Fin cfg0.N) (p : Fin 512) (bi : Fin 8) (s : Fin 4096)
    (h : bi.val * 4096 + s.val = 512 * t.val + p.val) :
    rowOut (xb0 m c t) (xb1 m c t) (xb2 m c t) (xb3 m c t) (xb6 m c t) (xb7 m c t) p = rowArgs m c bi s := by
  have hx : rowAt (xb0 m c t) p = fun i => a0 m c (ix3 bi s i) := funext fun i =>
    (xb0_apply m c t p i ⟨512 * t.val + p.val, by have := lt_of_lt_of_eq t.isLt N64; omega⟩ rfl).trans
      (V_v0 m c bi s i _ h.symm)
  have hW : (fun i d => xb1 m c t (ix2 i d)) = fun i d => a1 m c (ix2 i d) := funext fun i => funext fun d =>
    (xb1_apply m c t i d).trans (V_v1 m c i d)
  have hb : (fun d => xb2 m c t (ix2 (0 : Fin 1) d)) = fun d => a2 m c (ix1 d) := funext fun d =>
    (xb2_apply m c t 0 d).trans (V_v8 m c d)
  have hC : (fun k d => xb3 m c t (ix2 k d)) = fun k d => a3 m c (ix2 k d) := funext fun k => funext fun d =>
    (xb3_apply m c t k d).trans (V_v2 m c k d)
  have hw : (fun d => xb6 m c t (ix2 (0 : Fin 1) d)) = fun d => a4 m c (ix2 d (0 : Fin 1)) := funext fun d =>
    (xb6_apply m c t 0 d).trans (V_v9 m c d)
  have hb2 : xb7 m c t (ix2 (0 : Fin 1) (0 : Fin 1)) = a5 m c (ix1 (0 : Fin 1)) :=
    (xb7_apply m c t 0 0).trans (V_v10 m c)
  unfold rowOut rowArgs
  rw [hx, hW, hb, hC, hw, hb2]

/-- The transposed codebook block is the codebook block transposed. -/
theorem blocks_T (c : Dev nD) (t : Fin cfg0.N) (d : Fin 512) (k : Fin 4096) : xb4 m c t (ix2 d k) = xb3 m c t (ix2 k d) :=
  ((xb4_apply m c t d k).trans (V_v4 m c d k)).trans ((xb3_apply m c t k d).trans (V_v2 m c k d)).symm

/-- The squared-norm row is the squared norms of the codebook block's rows. -/
theorem blocks_sq (c : Dev nD) (t : Fin cfg0.N) (k : Fin 4096) :
    xb5 m c t (ix2 (0 : Fin 1) k) = ∑ d : Fin 512, xb3 m c t (ix2 k d) * xb3 m c t (ix2 k d) := by
  refine ((xb5_apply m c t 0 k).trans (V_v7 m c k)).trans (Finset.sum_congr rfl fun d _ => ?_)
  have e : xb3 m c t (ix2 k d) = centArr m c (ix2 k d) := (xb3_apply m c t k d).trans (V_v2 m c k d)
  rw [e]

/-! ## The output array after the region -/

/-- The [32768, 1] output as one function of the arguments: entry (r, 0) is the row function at row r of x. -/
def outArr (c : Dev nD) : S32768x1.Idx → EReal := fun i =>
  rowArgs m c (⟨(i 0).val / 4096, by have h : (i 0).val < 32768 := (i 0).isLt; omega⟩ : Fin 8)
    (⟨(i 0).val % 4096, Nat.mod_lt _ (by decide)⟩ : Fin 4096)

/-- What point `t` writes back is block `t` of `outArr`. -/
theorem flushed_eq (c : Dev nD) (t : Fin cfg0.N) :
    (dats m 0 c).flushed 8 t = ((cfg0.win 8).blk t).view.read (Elt Ideal) (outArr m c) := by
  obtain ⟨-, -, -, -, -, -, -, -, -, -, -, -, -, -, -, -, e0, e1⟩ := idx_facts t
  show (cfg0.win 8).cut (grid0.coords t) ((dats m 0 c).after 8 t) = _
  rw [after0_8]
  funext j
  show out0_8 (xb0 m c t) (xb1 m c t) (xb2 m c t) (xb3 m c t) (xb4 m c t) (xb5 m c t) (xb6 m c t) (xb7 m c t) j
    = outArr m c (((cfg0.win 8).blk t).view.emb j)
  have ht : t.val < 64 := lt_of_lt_of_eq t.isLt N64
  have hj : (j 0).val < 512 := (j 0).isLt
  have hemb : ((((cfg0.win 8).blk t).view.emb j) 0).val = 512 * t.val + (j 0).val := by
    show win0_8.index t (0 : Fin 2) * 512 + 1 * (j 0).val = _
    rw [e0]; omega
  rw [out_row _ _ _ _ _ _ _ _ (blocks_T m c t) (blocks_sq m c t) j]
  unfold outArr
  refine rowOut_blocks m c t ⟨(j 0).val, hj⟩ _ _ ?_
  show ((((cfg0.win 8).blk t).view.emb j) 0).val / 4096 * 4096 + ((((cfg0.win 8).blk t).view.emb j) 0).val % 4096
    = 512 * t.val + (j 0).val
  rw [hemb]
  omega

/-- Every entry of the output lies in some point's block. -/
theorem covered (i : S32768x1.Idx) :
    ∃ t : Fin cfg0.N, (cfg0.win 8).flush t = true ∧ i ∈ ((cfg0.win 8).blk t).view.set := by
  have hi0 : (i 0).val < 32768 := (i 0).isLt
  have hi1 : (i 1).val < 1 := (i 1).isLt
  have ht : (i 0).val / 512 < cfg0.N := by rw [N64]; omega
  refine ⟨⟨(i 0).val / 512, ht⟩, flush0_8 _, ?_⟩
  obtain ⟨-, -, -, -, -, -, -, -, -, -, -, -, -, -, -, -, e0', e1⟩ := idx_facts ⟨(i 0).val / 512, ht⟩
  have e0 : win0_8.index ⟨(i 0).val / 512, ht⟩ (0 : Fin 2) = (i 0).val / 512 := e0'
  show i ∈ ((View.whole main_v11).slice (win0_8.rect ⟨(i 0).val / 512, ht⟩)).set
  rw [View.set_slice_whole, Rect.mem_set_unit]
  intro a
  match a with
  | ⟨0, _⟩ =>
    show win0_8.index _ (0 : Fin 2) * 512 ≤ (i 0).val ∧ (i 0).val < win0_8.index _ (0 : Fin 2) * 512 + 512
    rw [e0]; constructor <;> omega
  | ⟨1, _⟩ =>
    show win0_8.index _ (1 : Fin 2) * 1 ≤ (i 1).val ∧ (i 1).val < win0_8.index _ (1 : Fin 2) * 1 + 1
    rw [e1]; constructor <;> omega

/-- So the output array after the region is `outArr`. -/
theorem final_out (c : Dev nD) : (dats m 0 c).arrAt 8 cfg0.N = outArr m c :=
  (dats m 0 c).arrAt_eq_of_cover 8 (outArr m c) (fun t _ => flushed_eq m c t) covered

/-! ## The reshape after the region, and the run -/

/-- The program's result as a function of the arguments: entry (bi, s, 0) is the row function at (bi, s). -/
def result (c : Dev nD) : S8x4096x1.Idx → EReal := fun j =>
  rowArgs m c (⟨(j 0).val, (j 0).isLt⟩ : Fin 8) (⟨(j 1).val, (j 1).isLt⟩ : Fin 4096)

theorem rowArgs_congr (c : Dev nD) {b b' : Fin 8} {s s' : Fin 4096} (hb : b.val = b'.val) (hs : s.val = s'.val) :
    rowArgs m c b s = rowArgs m c b' s' := by
  obtain rfl := Fin.ext hb
  obtain rfl := Fin.ext hs
  rfl

/-- The one host operation after the region reshapes the [32768, 1] output to [8, 4096, 1]: entry (bi, s, 0) is entry
    (4096 bi + s, 0). -/
theorem tail_eq (c : Dev nD) :
    Pipeline.afterTail₀ cfgs (dats m) 0 (V0 m) [hostOps1] c main_v12 = result m c := by
  have hA : Pipeline.withArrays (cfgs 0).spec c (V0 m c) (fun w => (dats m 0 c).arrAt w (cfgs 0).N) (Proc.devRef .tc main_v11)
      = outArr m c :=
    (Pipeline.withArrays_arr spec0 launch0.win.arr_inj c _ _ 8).trans (final_out m c)
  unfold Pipeline.afterTail₀
  show StableHlo.after hostOps1 _ (Proc.devRef .tc main_v12) = _
  after_results
  funext j
  obtain ⟨bi, s, o, rfl⟩ : ∃ (bi : Fin 8) (s : Fin 4096) (o : Fin 1), j = ix3 bi s o := ⟨j 0, j 1, j 2, eq_ix3 j⟩
  show shapeCast S8x4096x1 (Pipeline.withArrays (cfgs 0).spec c (V0 m c) (fun w => (dats m 0 c).arrAt w (cfgs 0).N)
      (Proc.devRef .tc main_v11)) shapeCasts_S32768x1_S8x4096x1 (ix3 bi s o) = result m c (ix3 bi s o)
  rw [hA]
  have hbi : bi.val < 8 := bi.isLt
  have hs : s.val < 4096 := s.isLt
  have ho : o.val = 0 := by omega
  have hr : bi.val * 4096 + s.val < 32768 := by omega
  refine (shapeCast_apply (outArr m c) shapeCasts_S32768x1_S8x4096x1 (ix3 bi s o)
    (ix2 (⟨bi.val * 4096 + s.val, hr⟩ : Fin 32768) (0 : Fin 1)) ?_).trans ?_
  · rw [Shape.rowMajor_val_two, Shape.rowMajor_val_three]
    show (bi.val * 4096 + s.val) * 1 + 0 = (bi.val * 4096 + s.val) * 1 + o.val
    omega
  · unfold outArr result
    refine rowArgs_congr m c ?_ ?_
    · show (bi.val * 4096 + s.val) / 4096 = bi.val
      omega
    · show (bi.val * 4096 + s.val) % 4096 = s.val
      omega

/-- Every weakly fair execution of the idealized kernel program ends with its result at `result` and its arguments
    unchanged. -/
theorem kernel_run : θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KMeansKer

end
-- ==== Proof.lean ====
/-
  The certificate of the soft k-means layer: a fused kernel against its reference, over the extended reals.

  Per row x of the input, both programs compute
      out = ((Σ_c softmax(−δ)_c C_c) / √512) · w₂ + b₂,   δ_c = √ max(‖h‖² + ‖C_c‖² − 2 h·C_c, 0),   h = x·W₁ + b₁.
  The reference shifts −δ by its maximum, normalises every weight, combines, and DIVIDES by D = f32(√512). The kernel
  shifts δ by its minimum, combines the unnormalised weights, and multiplies once by (1/Σ)·κ, where κ is its folded
  1/√512; the certificate's table names κ the exact reciprocal 1/D, which is what makes the two scales one number.
  * The two softmax shifts agree on all extended reals; moving the normalisation and the scale across the sum over
    the 4096 centroids is distributivity, which needs finite factors: here the precondition is used (x, W₁, b₁ and
    the codebook finite make every distance, weight and the sum Σ > 0 real) — `rowKer_eq_rowRef`.
  * The reference's result, read operation by operation, is the reference arrangement at row (batch, position) —
    `ref_row`.
  * The kernel's output block at each of 64 grid points holds the kernel arrangement at its 512 rows; the blocks
    cover the [32768, 1] output, which the host then reshapes to [8, 4096, 1] — `kernel_run`.
  The two frames of the kernel programs and the run of the reference are the generated ones.
-/
import proofs.«402103_j48155173323353_3_alg».proof.Defs
import proofs.«402103_j48155173323353_3_alg».proof.Proof.Gen.Kernel
import proofs.«402103_j48155173323353_3_alg».proof.Proof.Gen.Kernel.Skeleton
import proofs.«402103_j48155173323353_3_alg».proof.Proof.Gen.Kernel.Launch
import proofs.«402103_j48155173323353_3_alg».proof.Proof.Gen.Kernel.Points
import proofs.«402103_j48155173323353_3_alg».proof.Proof.Gen.Kernel.Frame
import proofs.«402103_j48155173323353_3_alg».proof.Proof.Gen.KernelIdeal
import proofs.«402103_j48155173323353_3_alg».proof.Proof.Gen.KernelIdeal.Skeleton
import proofs.«402103_j48155173323353_3_alg».proof.Proof.Gen.KernelIdeal.Launch
import proofs.«402103_j48155173323353_3_alg».proof.Proof.Gen.KernelIdeal.Points
import proofs.«402103_j48155173323353_3_alg».proof.Proof.Gen.KernelIdeal.Frame
import proofs.«402103_j48155173323353_3_alg».proof.Proof.Gen.ReferenceIdeal
import proofs.«402103_j48155173323353_3_alg».proof.Proof.Gen.Pre_finite_inputs
import proofs.«402103_j48155173323353_3_alg».proof.Proof.Gen.ReferenceIdeal.Run
import proofs.«402103_j48155173323353_3_alg».proof.Proof.Gen.ReferenceIdeal.Read
import proofs.«402103_j48155173323353_3_alg».proof.Proof.RowSpec
import proofs.«402103_j48155173323353_3_alg».proof.Proof.RowLaw
import proofs.«402103_j48155173323353_3_alg».proof.Proof.FiniteArgs
import proofs.«402103_j48155173323353_3_alg».proof.Proof.RefRow
import proofs.«402103_j48155173323353_3_alg».proof.Proof.KerValue
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's two entries (one per 256-row half of the body) name the same word the same value: the table gives
    "inv_sqrt_d" the rational 524288 / 11863283, the exact reciprocal of the reference's divisor. -/
theorem preserves : Cert.preserves_Kernel_KernelIdeal :=
  ⟨IdealRules.named_const.statement Cert.KernelIdeal.κ "inv_sqrt_d" .f32 0x3D3504F3#32 ((524288 / 11863283 : ℝ) : EReal) rfl,
    IdealRules.named_const.statement Cert.KernelIdeal.κ "inv_sqrt_d" .f32 0x3D3504F3#32 ((524288 / 11863283 : ℝ) : EReal) rfl⟩

/-- Both programs end with the row function at every (batch, position): the kernel in its arrangement, the reference
    in its own, equal because the inputs are finite. -/
theorem algebraic : Cert.algebraic_KernelIdeal_ReferenceIdeal := by
  intro m ρ m' ρ' hpre hagree
  refine ⟨fun c => Cert.KMeansKer.result m c, Cert.KMeansKer.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq]
  obtain ⟨h0, h1, h2, h3, h4, h5⟩ := hagree c
  rw [h0, h1, h2, h3, h4, h5]
  obtain ⟨r0, r1, r2, r3⟩ := Cert.KMeansFinite.real_of_pre _ _ _ _ _ _ (hpre c)
  funext j
  obtain ⟨bi, s, o, rfl⟩ : ∃ (bi : Fin 8) (s : Fin 4096) (o : Fin 1), j = ix3 bi s o := ⟨j 0, j 1, j 2, eq_ix3 j⟩
  refine (Cert.KMeansRef.ref_row _ _ _ _ _ _ bi s o).trans ?_
  exact (Cert.KMeansRow.rowKer_eq_rowRef _ _ _ _ _ _ (fun i => r0 _) (fun i d => r1 _) (fun d => r2 _) (fun k d => r3 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
